-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 512]⟩ ⟨2, ![2048, 1024]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1, 512]⟩ ⟨2, ![1, 1024]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x512 : Shape := ⟨2, ![1024, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel

variable [Facts]

def fn {F : FTy → Type} [FloatOps F] (main_arg0 : FVec F S1024x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  main_v3
-- ==== Pre_finite_inputs_ReferenceIdeal.lean ====
abbrev S2048x1024 : Shape := ⟨2, ![2048, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel

variable [Facts]

def fn {F : FTy → Type} [FloatOps F] (main_arg0 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  main_v3
-- ==== Kernel.lean ====
abbrev S1024x512 : Shape := ⟨2, ![1024, 512]⟩
abbrev S1x512 : Shape := ⟨2, ![1, 512]⟩
abbrev S2x1x512 : Shape := ⟨3, ![2, 1, 512]⟩
abbrev S_ : Shape := ⟨0, ![]⟩
abbrev S512 : Shape := ⟨1, ![512]⟩
abbrev S1x1x512 : Shape := ⟨3, ![1, 1, 512]⟩

abbrev nBuf : Space → Nat
  | .hbm => 2
  | .vmem => 3
  | .smem => 0
  | _ => 0

abbrev bufTy : (tb : Table) → Fin (tcTables nBuf tb) → BufTy
  | .hbm, ⟨0, _⟩ => ⟨S1024x512, .f32⟩
  | .hbm, ⟨1, _⟩ => ⟨S1x512, .f32⟩
  | .local _ .vmem, ⟨0, _⟩ => ⟨S1024x512, .f32⟩
  | .local _ .vmem, ⟨1, _⟩ => ⟨S1x512, .f32⟩
  | .local _ .vmem, ⟨2, _⟩ => ⟨S2x1x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_4 : BitVec 32 := 2#32
  let v8 : BitVec 32 := Scalar.muli v6 c2_i32_4
  let v9 : BitVec 32 := Scalar.addi c0_i32 v8
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5 : BitVec 32 := 1#32
  let v10 : BitVec 32 := Scalar.muli v5 c1_i32_5
  let v11 : BitVec 32 := Scalar.addi v9 v10
  v11.toNat
def k0_dev2 (d0 : Dev nD) : Nat :=
  let c0_i32_14 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_13 : BitVec 32 := 2#32
  let v19 : BitVec 32 := Scalar.muli v6 c2_i32_13
  let v20 : BitVec 32 := Scalar.addi c0_i32_14 v19
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_15 : BitVec 32 := 1#32
  let v21 : BitVec 32 := Scalar.muli v5 c1_i32_15
  let v22 : BitVec 32 := Scalar.addi v20 v21
  v22.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  reduces_S1024x512_S512 : S1024x512.Reduces [0] S512
  shapeCasts_S512_S1x512 : S512.ShapeCasts S1x512
  inb_S2x1x512_S1x1x512_0_0_0 : ∀ a, (![0, 0, 0] : Fin 3 → Nat) a + S1x1x512.size a ≤ S2x1x512.size a
  h_S1x1x512 : 0 < S1x1x512.numel
  shapeCasts_S1x1x512_S1x512 : S1x1x512.ShapeCasts S1x512
  shapeCasts_S1x512_S1x1x512 : S1x512.ShapeCasts S1x1x512
  inb_S2x1x512_S1x1x512_1_0_0 : ∀ a, (![1, 0, 0] : Fin 3 → Nat) a + S1x1x512.size a ≤ S2x1x512.size a
  squeezes_S1x1x512_S1x512 : S1x1x512.Squeezes S1x512
  inb_S1x512_S1x512_0_0 : ∀ a, (![0, 0] : Fin 2 → Nat) a + S1x512.size a ≤ S1x512.size a
  h_S1x512 : 0 < S1x512.numel
  hcc0_scratch1 : 2 + S_.numel ≤ 4
  hcc0_scratch2 : 3 + S_.numel ≤ 4
  k0_dev1_lt : ∀ d0 : Dev nD, (k0_dev1 d0) < nD
  k0_dev2_lt : ∀ d0 : Dev nD, (k0_dev2 d0) < nD
  hstage0_0 : ∀ j, (stage0_0 j).IsWhole
  hstage0_1 : ∀ j, (stage0_1 j).IsWhole

variable [Facts₀]

abbrev cc0_scratch1 : DmaSems sig S_ := SemArray.consecutive 2 S_ hcc0_scratch1
abbrev cc0_scratch2 : DmaSems sig S_ := SemArray.consecutive 3 S_ hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2048x1024 : Shape := ⟨2, ![2048, 1024]⟩
abbrev S_ : Shape := ⟨0, ![]⟩
abbrev S1024 : Shape := ⟨1, ![1024]⟩
abbrev S1x1024 : Shape := ⟨2, ![1, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S_, .f32⟩
  | .hbm, ⟨2, _⟩ => ⟨S1024, .f32⟩
  | .hbm, ⟨3, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S2048x1024_S1024_d0 : S2048x1024.ReducesTo [0] S1024
  h_S_ : 0 < S_.numel
  bcast_S1024_S1x1024_1 : S1024.BroadcastsInDim S1x1024 (![1] : Fin 1 → Fin S1x1024.rank)

variable [Facts₀]

class Facts : Prop extends Facts₀ where

variable [Facts]
-- ==== Proof.Spec.lean ====
/-
  The kernel on one device, as a function of values.  Device `c` of the 2×2 mesh holds the block of `x` at rows
  `1024·(c / 2) …`, columns `512·(c % 2) …`.  Its partner across the first mesh axis, `peer c`, holds the other half of
  the rows of the same columns.  Each device sums its block over the rows (`colSum`), sends that row of 512 sums to its
  partner and adds what it receives: `outVal X Xp` is the result row on a device whose block is `X` and whose partner's
  block is `Xp`.
-/
import proofs.«901094_g7700000000001095_dist_sum_ax0_xy_m1024_n512_v7x_xy2x2_bf16_1_alg».proof.Proof.Gen.KernelIdeal.Skeleton

noncomputable section

namespace Cert.KernelIdeal.Pf

open Cert.KernelIdeal Cert.KernelIdeal.Gen
open Idealize.ShloMosaic Idealize.SL.Sem

variable {F : FTy → Type} [FloatOps F]

/-- The partner of device `c`: the device at the other coordinate of the first mesh axis and the same coordinate of the
    second (devices are numbered row-major, so the first axis has stride 2). -/
def peer (c : Dev nD) : Dev nD := ⟨(c.val + 2) % 4, Nat.mod_lt _ (by decide)⟩

theorem peer_peer (c : Dev nD) : peer (peer c) = c := by revert c; decide
theorem peer_ne (c : Dev nD) : peer c ≠ c := by revert c; decide

/-- The sums over the 1024 rows of a block, as the 1×1×512 row the kernel keeps in its scratch buffer. -/
def colSum (X : Vec F S1024x512 .f32) : Vec F S1x1x512 .f32 := k0_pay2 X

/-- A device's result row: its own column sums plus its partner's. -/
def outVal (X Xp : Vec F S1024x512 .f32) : Vec F S1x512 .f32 := k0_pay1 (colSum X) (colSum Xp)

/-- What the run of the kernel on the whole mesh establishes, as a predicate on final states: every device's result
    buffer holds `outVal` of its own and its partner's argument block, and its argument buffer is unchanged. -/
def RunPost (m : (ℓ : Loc nD τ sig) → Buf (Elt F) ℓ) : PUnit × MemSt nD τ sig (Elt F) → Prop := fun r =>
  ∀ c : Dev nD,
    r.2.mem ((c.tc : Thread nD τ).loc main_v1)
        = outVal (m ((c.tc : Thread nD τ).loc main_arg0)) (m (((peer c).tc : Thread nD τ).loc main_arg0))
      ∧ r.2.mem ((c.tc : Thread nD τ).loc main_arg0) = m ((c.tc : Thread nD τ).loc main_arg0)

end Cert.KernelIdeal.Pf

end
-- ==== Proof.Proto.lean ====
/-
  The protocol of the kernel on the 2×2 mesh, under the rounds discipline.

  Device `c` and its partner `peer c` (the other coordinate on the first mesh axis) exchange one row of 512 column sums.
  Per device three semaphore cells, each with ONE duty in ONE round:
  * the barrier cell: one unit, paid by the partner's entry signal.  With it the partner hands over slot 1 of its own
    scratch buffer (where this device's transfer will land) and the fact that it stands at round 0 of its receive cell;
  * the receive cell: the transfer's credit, paid by the partner's transfer into slot 1 of this device's scratch buffer.
    It hands this device slot 1 holding the partner's column sums;
  * the send cell: the same credit, paid by this device's own transfer once slot 0 has been read.  It hands back the
    half share of slot 0 lent to the transfer; the other half stays with the device, which reads slot 0 while the transfer
    is still pending.
  A device owes its partner's barrier cell one unit and its partner's receive cell the credit; it waits on its barrier
  cell still owing the latter, so barrier cells lie below receive cells.
-/
import proofs.«901094_g7700000000001095_dist_sum_ax0_xy_m1024_n512_v7x_xy2x2_bf16_1_alg».proof.Proof.Spec
import proofs.«901094_g7700000000001095_dist_sum_ax0_xy_m1024_n512_v7x_xy2x2_bf16_1_alg».proof.Proof.Gen.KernelIdeal
import proofs.«901094_g7700000000001095_dist_sum_ax0_xy_m1024_n512_v7x_xy2x2_bf16_1_alg».proof.Proof.Gen.KernelIdeal.Skeleton
import proofs.«901094_g7700000000001095_dist_sum_ax0_xy_m1024_n512_v7x_xy2x2_bf16_1_alg».proof.Proof.Gen.KernelIdeal.Launch
import Idealize.ShloMosaic.Lib.Pipeline.Launch
import Idealize.ShloMosaic.Lib.Pipeline.Kit
import Idealize.ShloMosaic.Lib.Writes
import Idealize.ShloMosaic.Lib.Tactic

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside the protocol's own -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The partner -/

/-- Both device chains of the body — the entry signal's and the transfer's — name the partner. -/
theorem dev1_eq (c : Dev nD) : (⟨k0_dev1 c, k0_dev1_lt c⟩ : Dev nD) = peer c :=
  Fin.ext ((k0_dev1_eq c).trans (by revert c; decide))
theorem dev2_eq (c : Dev nD) : (⟨k0_dev2 c, k0_dev2_lt c⟩ : Dev nD) = peer c :=
  Fin.ext ((k0_dev2_eq c).trans (by revert c; decide))

def pairing : Dev nD ≃ Dev nD := ⟨peer, peer, peer_peer, peer_peer⟩

/-! ## The memrefs, the two slots of the scratch buffer, the cells -/

abbrev xM : Memref sig .tc .vmem S1024x512 .f32 := Memref.whole cc0_stg0_0
abbrev oM : Memref sig .tc .vmem S1x512 .f32 := Memref.whole cc0_stg1_0
abbrev sM : Memref sig .tc .vmem S2x1x512 .f32 := Memref.whole cc0_scratch0

abbrev rx : Rect S1024x512 := Rect.unit (s := S1024x512) ![0, 0] S1024x512.size inb_S1024x512_S1024x512_0_0
abbrev ro : Rect S1x512 := Rect.unit (s := S1x512) ![0, 0] S1x512.size inb_S1x512_S1x512_0_0
/-- Slot 0 and slot 1 of the scratch buffer, as rectangles of it. -/
abbrev r0 : Rect S2x1x512 := Rect.unit (s := S2x1x512) ![0, 0, 0] S1x1x512.size inb_S2x1x512_S1x1x512_0_0_0
abbrev r1 : Rect S2x1x512 := Rect.unit (s := S2x1x512) ![1, 0, 0] S1x1x512.size inb_S2x1x512_S1x1x512_1_0_0

/-- The transfer's source (slot 0) and destination (slot 1), each a 1×512 view. -/
abbrev src0 : Memref sig .tc .vmem S1x512 .f32 := (sM.slice r0 (fun _ => rfl)).squeeze S1x512 squeezes_S1x1x512_S1x512
abbrev dst1 : Memref sig .tc .vmem S1x512 .f32 := (sM.slice r1 (fun _ => rfl)).squeeze S1x512 squeezes_S1x1x512_S1x512

/-- The runtime's barrier semaphore of collective id 0 (unscoped); the send and receive DMA semaphores (scoped scratch). -/
abbrev barS : Sem sig := (SemArray.scalar (sig.barrier 0 rfl) : Sems sig S_).sem
abbrev sendS : DmaSems sig S_ := cc0_scratch1
abbrev recvS : DmaSems sig S_ := cc0_scratch2

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's own (scoped) semaphores as the launch indexes them; all three of the protocol's as this proof does. -/
abbrev osem : Fin 2 → SemLoc sig := fun | 0 => .dma sendS.sem | 1 => .dma recvS.sem
abbrev csem : Fin 3 → SemLoc sig := fun | 0 => .reg barS | 1 => .dma sendS.sem | 2 => .dma recvS.sem
abbrev kcell (ck : Dev nD × Fin 3) : GSem nD τ sig := ((ck.1 : Thread nD τ), csem ck.2)

/-- The credit of one transfer of a slot. -/
abbrev N : ℕ := (dst1 : Memref sig .tc .vmem S1x512 .f32).view.dmaCredit
theorem N_pos : 0 < N := View.dmaCredit_pos _ (by decide)

/-! ## The two slots as regions of the scratch buffer -/

omit [FloatOps F] in
theorem set_src0 : (src0 : Memref sig .tc .vmem S1x512 .f32).view.set = r0.set := by
  simp only [Memref.view_squeeze, Memref.view_slice, Memref.view_whole, View.set_reshape, View.set_slice_whole]
omit [FloatOps F] in
theorem set_dst1 : (dst1 : Memref sig .tc .vmem S1x512 .f32).view.set = r1.set := by
  simp only [Memref.view_squeeze, Memref.view_slice, Memref.view_whole, View.set_reshape, View.set_slice_whole]
omit [FloatOps F] in
/-- The slots share no element: they differ on the first axis. -/
theorem slots_disjoint : Disjoint (src0 : Memref sig .tc .vmem S1x512 .f32).view.set (dst1 : Memref sig .tc .vmem S1x512 .f32).view.set := by
  rw [set_src0, set_dst1]
  exact Rect.unit_disjoint (0 : Fin 3) (Or.inl (by decide))

/-! ## Contents -/

/-- Device `c`'s block of `x`, as the pipeline stages it. -/
def xstg (c : Dev nD) : (cc0_stg0_0 : Ref sig .tc).ty.Contents (Elt F) :=
  (win0_0.blk (0 : Fin 1)).view.read (Elt F) ((s₀ m ρ).mem ((c : Thread nD τ).loc main_arg0))

/-- What a load of slot `k` reads off the scratch buffer's contents. -/
abbrev rd0 (c : Dev nD) (f : Buf (Elt F) ((sM : Memref sig .tc .vmem S2x1x512 .f32).view.loc (c : Thread nD τ))) : Vec F S1x1x512 .f32 :=
  (sM : Memref sig .tc .vmem S2x1x512 .f32).view.readAt (Elt F) r0.toLoadRect f
abbrev rd1 (c : Dev nD) (f : Buf (Elt F) ((sM : Memref sig .tc .vmem S2x1x512 .f32).view.loc (c : Thread nD τ))) : Vec F S1x1x512 .f32 :=
  (sM : Memref sig .tc .vmem S2x1x512 .f32).view.readAt (Elt F) r1.toLoadRect f

/-- Share `q` of slot 0 of device `c`'s scratch buffer at contents `f`; all of slot 1. -/
def slot0Pts (c : Dev nD) (q : PosShare TreeShare) (f : Buf (Elt F) ((src0 : Memref sig .tc .vmem S1x512 .f32).view.loc (c : Thread nD τ))) : sProp 𝕄 :=
  (src0 : Memref sig .tc .vmem S1x512 .f32).view.loc (c : Thread nD τ) ↦[(src0 : Memref sig .tc .vmem S1x512 .f32).view.set]{q} f
def slot1Pts (c : Dev nD) (f : Buf (Elt F) ((dst1 : Memref sig .tc .vmem S1x512 .f32).view.loc (c : Thread nD τ))) : sProp 𝕄 :=
  (dst1 : Memref sig .tc .vmem S1x512 .f32).view.loc (c : Thread nD τ) ↦[(dst1 : Memref sig .tc .vmem S1x512 .f32).view.set]{fullShare} f
def xPts (c : Dev nD) : sProp 𝕄 :=
  (xM : Memref sig .tc .vmem S1024x512 .f32).view.loc (c : Thread nD τ) ↦[(xM : Memref sig .tc .vmem S1024x512 .f32).view.set]{fullShare} xstg m ρ c

omit [FloatOps F] in
instance slot0Pts_storable (c : Dev nD) (q) (f) : BI.Storable (upEmb : UEmb _ 𝕄) (slot0Pts (F := F) c q f) := by unfold slot0Pts; infer_instance
omit [FloatOps F] in
instance slot1Pts_storable (c : Dev nD) (f) : BI.Storable (upEmb : UEmb _ 𝕄) (slot1Pts (F := F) c f) := by unfold slot1Pts; infer_instance

/-! ## The schedule -/

/-- The partner's entry signal hands `c` the partner's landing slot and that the partner stands at round 0 of its receive cell. -/
def barPay (c : Dev nD) : sProp 𝕄 := iprop((∃ f, slot1Pts (peer c) f) ∗ reached ER (recvCell (peer c)) 0)
/-- The partner's transfer hands `c` its slot 1 holding the partner's column sums. -/
def recvPay (c : Dev nD) : sProp 𝕄 := iprop(∃ f, ⌜rd1 c f = colSum (xstg m ρ (peer c))⌝ ∗ slot1Pts c f)
/-- `c`'s own transfer hands back the half of slot 0 it was lent. -/
def sendPay (c : Dev nD) : sProp 𝕄 := iprop(∃ f, slot0Pts c fullShare.right f)

abbrev IsCell (g : GSem nD τ sig) : Prop := g.1.2 = .tc ∧ (g.2 = .reg barS ∨ g.2 = .dma sendS.sem ∨ g.2 = .dma recvS.sem)

/-- One round, round 0; every cell one duty (`false`): a barrier cell one unit, a send or receive cell the slot's credit. -/
def sched : Rounds.Schedule (GSem nD τ sig) Bool 𝕄 where
  duties g r := if r = 0 ∧ IsCell g then {false} else ∅
  unitless _ := False
  amount g _ _ := if g.2 = .reg barS then 1 else N
  payload g _ _ :=
    if g.2 = .reg barS then barPay g.1.1
    else if g.2 = .dma recvS.sem then recvPay m ρ g.1.1
    else if g.2 = .dma sendS.sem then sendPay g.1.1
    else iprop(emp)
  amount_pos g _ _ _ := by
    by_cases h : g.2 = .reg barS
    · rw [if_pos h]; exact Nat.one_pos
    · rw [if_neg h]; exact N_pos

instance sched_payload_storable (g : GSem nD τ sig) (r : ℕ) (d : Bool) :
    BI.Storable (upEmb : UEmb _ 𝕄) ((sched (F := F) m ρ).payload g r d) := by
  show BI.Storable upEmb (if g.2 = .reg barS then barPay g.1.1 else if g.2 = .dma recvS.sem then recvPay m ρ g.1.1
    else if g.2 = .dma sendS.sem then sendPay g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

theorem duties_bar : (sched (F := F) m ρ).duties (barCell c) 0 = {false} := by dsimp only [sched]; exact if_pos ⟨rfl, rfl, .inl rfl⟩
theorem duties_send : (sched (F := F) m ρ).duties (sendCell c) 0 = {false} := by dsimp only [sched]; exact if_pos ⟨rfl, rfl, .inr (.inl rfl)⟩
theorem duties_recv : (sched (F := F) m ρ).duties (recvCell c) 0 = {false} := by dsimp only [sched]; exact if_pos ⟨rfl, rfl, .inr (.inr rfl)⟩
theorem duties_later (g : GSem nD τ sig) : ∀ r, 1 ≤ r → (sched (F := F) m ρ).duties g r = ∅ :=
  fun r hr => by dsimp only [sched]; rw [if_neg fun h => by omega]

theorem amount_bar (d : Bool) : (sched (F := F) m ρ).amount (barCell c) 0 d = 1 := by dsimp only [sched]; exact if_pos rfl
theorem amount_send (d : Bool) : (sched (F := F) m ρ).amount (sendCell c) 0 d = N := by dsimp only [sched]; exact if_neg send_ne_bar
theorem amount_recv (d : Bool) : (sched (F := F) m ρ).amount (recvCell c) 0 d = N := by dsimp only [sched]; exact if_neg recv_ne_bar

theorem expect_bar : (sched (F := F) m ρ).expect (barCell c) 0 = 1 := by
  unfold Schedule.expect Schedule.amountOf; rw [duties_bar, Finset.sum_singleton, amount_bar]
theorem expect_send : (sched (F := F) m ρ).expect (sendCell c) 0 = N := by
  unfold Schedule.expect Schedule.amountOf; rw [duties_send, Finset.sum_singleton, amount_send]
theorem expect_recv : (sched (F := F) m ρ).expect (recvCell c) 0 = N := by
  unfold Schedule.expect Schedule.amountOf; rw [duties_recv, Finset.sum_singleton, amount_recv]

theorem payload_bar (d : Bool) : (sched (F := F) m ρ).payload (barCell c) 0 d = barPay c := by dsimp only [sched]; rw [if_pos rfl]
theorem payload_send (d : Bool) : (sched (F := F) m ρ).payload (sendCell c) 0 d = sendPay c := by
  dsimp only [sched]; rw [if_neg send_ne_bar, if_neg send_ne_recv, if_pos rfl]
theorem payload_recv (d : Bool) : (sched (F := F) m ρ).payload (recvCell c) 0 d = recvPay m ρ c := by
  dsimp only [sched]; rw [if_neg recv_ne_bar, if_pos rfl]

/-- The rest of each cell's round, no duty taken: its one payload. -/
theorem rest_bar : bigSep ((sched (F := F) m ρ).duties (barCell c) 0 \ ∅) (fun d => (sched (F := F) m ρ).payload (barCell c) 0 d) = barPay c := by
  rw [Finset.sdiff_empty, duties_bar, bigSep_singleton, payload_bar]
theorem rest_send : bigSep ((sched (F := F) m ρ).duties (sendCell c) 0 \ ∅) (fun d => (sched (F := F) m ρ).payload (sendCell c) 0 d) = sendPay c := by
  rw [Finset.sdiff_empty, duties_send, bigSep_singleton, payload_send]
theorem rest_recv : bigSep ((sched (F := F) m ρ).duties (recvCell c) 0 \ ∅) (fun d => (sched (F := F) m ρ).payload (recvCell c) 0 d) = recvPay m ρ c := by
  rw [Finset.sdiff_empty, duties_recv, bigSep_singleton, payload_recv]

end Sched

/-! ## What each device owes at launch; the levels -/

/-- Device `c` owes its partner's receive cell the slot's credit and its partner's barrier cell one unit — summed so that
    the entry signal peels the last summand. -/
def O₁ (c : Dev nD) : CellTallies nD τ sig Unit := tallyAt (recvCell (peer c)) () N
def O₀ (c : Dev nD) : CellTallies nD τ sig Unit := O₁ c + tallyAt (barCell (peer c)) () 1

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = recvCell (peer c) ∨ g = barCell (peer c) := by
  unfold O₀ O₁ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

omit [FloatOps F] in
/-- A wait on a staging semaphore or on the send cell (level 0) is below everything a device ever owes. -/
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

omit [FloatOps F] in
/-- At its barrier wait a device owes its partner's receive credit only: a receive cell, above its barrier cell. -/
theorem mayWait_bar (c : Dev nD) :
    (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

end Cert.KernelIdeal.Pf

end
-- ==== Proof.Slots.lean ====
/-
  The two slots of the scratch buffer, read and written.

  The scratch buffer is 2×1×512; slot `k` is the rectangle at offset `k` on the first axis.  The kernel stores and loads
  a slot through the whole buffer at that rectangle (as a 1×1×512 vector) and transfers between slots through the
  rectangle squeezed to 1×512.  Squeezing re-indexes in row-major order and back, so a transfer of slot 0 of one
  buffer into slot 1 of another, read as 1×1×512, gives what slot 0 read as 1×1×512.
-/
import proofs.«901094_g7700000000001095_dist_sum_ax0_xy_m1024_n512_v7x_xy2x2_bf16_1_alg».proof.Proof.Proto

noncomputable section

namespace Cert.KernelIdeal.Pf

open Cert.KernelIdeal Cert.KernelIdeal.Gen
open Idealize.ShloMosaic
open Idealize.ShloMosaic.TcCoe
open Idealize.SL Idealize.SL.RA Idealize.SL.Sem

variable {F : FTy → Type} [FloatOps F]

/-! ## Regions -/

omit [FloatOps F] in
/-- A load of slot 0 through the whole buffer reads exactly the transfer source's elements; -/
theorem load0_sub : (sM : Memref sig .tc .vmem S2x1x512 .f32).view.setOn r0.toLoadRect.set ⊆ (src0 : Memref sig .tc .vmem S1x512 .f32).view.set := by
  rw [set_src0]; intro i hi
  obtain ⟨j, hj, rfl⟩ := Finset.mem_map.mp hi
  exact hj
omit [FloatOps F] in
/-- a load of slot 1 the transfer destination's; -/
theorem load1_sub : (sM : Memref sig .tc .vmem S2x1x512 .f32).view.setOn r1.toLoadRect.set ⊆ (dst1 : Memref sig .tc .vmem S1x512 .f32).view.set := by
  rw [set_dst1]; intro i hi
  obtain ⟨j, hj, rfl⟩ := Finset.mem_map.mp hi
  exact hj
omit [FloatOps F] in
/-- a store of slot 0 writes exactly the transfer source's elements. -/
theorem store0_sub : ((sM : Memref sig .tc .vmem S2x1x512 .f32).access r0).setOn Finset.univ ⊆ (src0 : Memref sig .tc .vmem S1x512 .f32).view.set := by
  rw [set_src0, View.setOn_univ]
  show ((View.whole cc0_scratch0).slice r0).set ⊆ r0.set
  rw [View.set_slice_whole]

/-! ## Values -/

omit [FloatOps F] in
/-- Slot 0 read back after a store of `w` into it is `w`. -/
theorem rd0_store (c : Dev nD) (f : Buf (Elt F) ((sM : Memref sig .tc .vmem S2x1x512 .f32).view.loc (c : Thread nD τ))) (w : Vec F S1x1x512 .f32) :
    rd0 c (((sM : Memref sig .tc .vmem S2x1x512 .f32).access r0).write (Elt F) f w Finset.univ) = w :=
  View.read_write_univ (v := (sM : Memref sig .tc .vmem S2x1x512 .f32).access r0) f w

omit [FloatOps F] in
/-- The transfer of slot 0 of `fs` into slot 1 of `fd`, through the squeezed views: slot 1 then reads what slot 0 of `fs` read. -/
theorem rd1_land (c p : Dev nD) (fd : Buf (Elt F) ((dst1 : Memref sig .tc .vmem S1x512 .f32).view.loc (c : Thread nD τ)))
    (fs : Buf (Elt F) ((src0 : Memref sig .tc .vmem S1x512 .f32).view.loc (p : Thread nD τ))) :
    rd1 c ((dst1 : Memref sig .tc .vmem S1x512 .f32).view.write (Elt F) fd ((src0 : Memref sig .tc .vmem S1x512 .f32).view.read (Elt F) fs) Finset.univ)
      = rd0 p fs := by
  show ((View.whole cc0_scratch0).slice r1).read (Elt F)
      ((((View.whole cc0_scratch0).slice r1).reshape S1x512 squeezes_S1x1x512_S1x512.numel_eq).write (Elt F) fd
        ((((View.whole cc0_scratch0).slice r0).reshape S1x512 squeezes_S1x1x512_S1x512.numel_eq).read (Elt F) fs) Finset.univ)
    = ((View.whole cc0_scratch0).slice r0).read (Elt F) fs
  rw [View.write_reshape_univ, View.read_write_univ]
  funext x
  rw [View.read_apply, View.read_apply]
  simp only [View.emb_reshape, Function.Embedding.trans_apply, Equiv.coe_toEmbedding, Equiv.apply_symm_apply]

end Cert.KernelIdeal.Pf

end
-- ==== Proof.Body.lean ====
/-
  One device's body, stepped from the protocol's invariant.

  In program order: the entry signal to the partner's barrier cell (handing over slot 1 of the scratch buffer); the load of
  the block of `x`, its column sums stored into slot 0; the wait on the own barrier cell (the partner's slot 1 arrives);
  the transfer of slot 0 into the partner's slot 1, lent the right half of slot 0; the wait on the receive cell (the own
  slot 1 comes back holding the partner's column sums); the loads of both slots — slot 0 through the left half, the
  transfer still pending —, their sum stored into the result block; the wait on the send cell (the right half comes back);
  the two own cells closed and the scratch buffer put together again.
-/
import proofs.«901094_g7700000000001095_dist_sum_ax0_xy_m1024_n512_v7x_xy2x2_bf16_1_alg».proof.Proof.Slots

noncomputable section

namespace Cert.KernelIdeal.Pf

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The scratch buffer cut into its slots and put together again -/

/-- The whole scratch buffer of device `c`. -/
def scrPts (c : Dev nD) (f : Buf (Elt F) ((c : Thread nD τ).loc cc0_scratch0)) : sProp 𝕄 :=
  ((c : Thread nD τ).loc cc0_scratch0) ↦{fullShare} f
/-- What of it lies in neither slot (nothing, but that is never needed). -/
def restPts (c : Dev nD) (f : Buf (Elt F) ((c : Thread nD τ).loc cc0_scratch0)) : sProp 𝕄 :=
  ((c : Thread nD τ).loc cc0_scratch0)
    ↦[(Finset.univ \ (dst1 : Memref sig .tc .vmem S1x512 .f32).view.set) \ (src0 : Memref sig .tc .vmem S1x512 .f32).view.set]{fullShare} f

omit [FloatOps F] in
theorem src0_sub : (src0 : Memref sig .tc .vmem S1x512 .f32).view.set ⊆ Finset.univ \ (dst1 : Memref sig .tc .vmem S1x512 .f32).view.set :=
  Finset.subset_sdiff.mpr ⟨Finset.subset_univ _, slots_disjoint⟩

omit [FloatOps F] in
theorem scr_split (c : Dev nD) (f : Buf (Elt F) ((c : Thread nD τ).loc cc0_scratch0)) :
    scrPts c f ⊢ (iprop(slot1Pts c f ∗ slot0Pts c fullShare f ∗ restPts c f) : sProp 𝕄) := by
  unfold scrPts slot1Pts slot0Pts restPts
  exact (pointsTo_split_subset (Finset.subset_univ _)).1.trans (sep_mono_right (pointsTo_split_subset src0_sub).1)

omit [FloatOps F] in
theorem scr_join (c : Dev nD) (f1 f0 fr : Buf (Elt F) ((c : Thread nD τ).loc cc0_scratch0)) :
    iprop(slot1Pts c f1 ∗ slot0Pts c fullShare f0 ∗ restPts c fr) ⊢ (iprop(∃ f, scrPts c f) : sProp 𝕄) := by
  unfold scrPts slot1Pts slot0Pts restPts
  refine (sep_mono_right (pointsTo_join_subset src0_sub)).trans ?_
  refine (pointsTo_join_subset (Finset.subset_univ _)).trans ?_
  iintro H; iexists _; iexact H

omit [FloatOps F] in
/-- Slot 0 halved, and the halves — held at contents that then must agree — put together. -/
theorem slot0_halve (c : Dev nD) (f : Buf (Elt F) ((src0 : Memref sig .tc .vmem S1x512 .f32).view.loc (c : Thread nD τ))) :
    slot0Pts c fullShare f ⊢ (iprop(slot0Pts c fullShare.left f ∗ slot0Pts c fullShare.right f) : sProp 𝕄) := by
  unfold slot0Pts; exact (pointsTo_share (PosShare.mem_left_op_right fullShare)).1

omit [FloatOps F] in
theorem slot0_rejoin (c : Dev nD) (f g : Buf (Elt F) ((src0 : Memref sig .tc .vmem S1x512 .f32).view.loc (c : Thread nD τ))) :
    iprop(slot0Pts c fullShare.left f ∗ slot0Pts c fullShare.right g) ⊢ (slot0Pts c fullShare f : sProp 𝕄) := by
  unfold slot0Pts
  iintro H
  ihave H' := (persistent_entails_right pointsTo_agree) $$ H
  icases H' with ⟨%h, HL, HR⟩
  have e : ∀ i ∈ (src0 : Memref sig .tc .vmem S1x512 .f32).view.set, g i = f i :=
    fun i hi => ((h i (Finset.mem_inter.mpr ⟨hi, hi⟩)).1).symm
  ihave HR' := (Entails.of_eq (pointsTo_congr e)) $$ HR
  iapply (pointsTo_share (PosShare.mem_left_op_right fullShare)).2
  isplitl [HL] <;> iassumption

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The kernel's result on device `c`: its own column sums plus its partner's. -/
def outAt (c : Dev nD) : (cc0_stg1_0 : Ref sig .tc).ty.Contents (Elt F) := outVal (xstg m ρ c) (xstg m ρ (peer c))

/-- The cells' invariants device `c`'s body opens, under the names `K` the launch allocated them at: its own three, its
    partner's barrier cell (its signal) and its partner's receive cell (its transfer). -/
def invs (K : Dev nD × Fin 3 → ℕ) (c : Dev nD) : sProp 𝕄 :=
  iprop(cellInv ER (sched m ρ) (K (c, 0)) (barCell c) ∗ cellInv ER (sched m ρ) (K (c, 1)) (sendCell c) ∗ cellInv ER (sched m ρ) (K (c, 2)) (recvCell c)
    ∗ cellInv ER (sched m ρ) (K (peer c, 0)) (barCell (peer c)) ∗ cellInv ER (sched m ρ) (K (peer c, 2)) (recvCell (peer c)))

instance invs_persistent (K : Dev nD × Fin 3 → ℕ) (c : Dev nD) : BI.Persistent (invs m ρ K c) := by unfold invs; infer_instance

/-- The protocol's ghost state device `c` starts from: the invariants; its positions at round 0 of its three cells; the
    reached-marks of the cells it pays and of its own send and receive cells; the three duty tokens it pays with — its
    partner's barrier duty, its partner's receive duty, its own send duty. -/
def ghost (K : Dev nD × Fin 3 → ℕ) (c : Dev nD) : sProp 𝕄 :=
  iprop(invs m ρ K c
    ∗ atPos ER (barCell c) 0 ∅ 0 ∗ atPos ER (sendCell c) 0 ∅ 0 ∗ atPos ER (recvCell c) 0 ∅ 0
    ∗ reached ER (barCell (peer c)) 0 ∗ reached ER (recvCell (peer c)) 0 ∗ reached ER (sendCell c) 0 ∗ reached ER (recvCell c) 0
    ∗ dutyTok ER (barCell (peer c)) 0 false ∗ dutyTok ER (recvCell (peer c)) 0 false ∗ dutyTok ER (sendCell c) 0 false)

/-- What device `c`'s body starts from: that at some names, its two credit tokens (its barrier's unit, its receive
    cell's credit) and the level facts. -/
def start (c : Dev nD) : sProp 𝕄 :=
  iprop((∃ K, ghost m ρ K c) ∗ cred (tallyAt (barCell c) () 1) ∗ cred (tallyAt (recvCell c) () N) ∗ levAts L lv)

def Φ₀ (c : Dev nD) : sProp 𝕄 := iprop(start m ρ c ∗ ∃ f, scrPts c f)
/-- After the point: the scratch buffer whole again, the two own cells at zero, closed. -/
def Φ₁ (c : Dev nD) : sProp 𝕄 := iprop((∃ f, scrPts c f) ∗ semVal (sendCell c) 0 ∗ semVal (recvCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

section Body

variable (K : Dev nD × Fin 3 → ℕ)

omit [FloatOps F] in
theorem hz : (![0, 0] : Fin 2 → Nat) = fun _ => 0 := funext fun a => by fin_cases a <;> rfl
omit [FloatOps F] in
theorem read_x (f : (cc0_stg0_0 : Ref sig .tc).ty.Contents (Elt F)) : (xM : Memref sig .tc .vmem S1024x512 .f32).view.readAt (Elt F) rx.toLoadRect f = f :=
  Memref.readAt_unit_zero (Elt F) cc0_stg0_0 hz _ f
omit [FloatOps F] in
theorem write_out (f w : (cc0_stg1_0 : Ref sig .tc).ty.Contents (Elt F)) :
    ((oM : Memref sig .tc .vmem S1x512 .f32).access ro : View sig .tc _ _ _).write (Elt F) f w Finset.univ = w :=
  Memref.write_access_unit_zero_univ (Elt F) cc0_stg1_0 hz _ f w

/-- The transfer, stated over this protocol's cells: slot 0 (its right half lent, holding the own column sums) into the
    partner's slot 1. -/
theorem wp_send_pair (c n : Dev nD) (hn : n = peer c) {hsc : (dst1 : Memref sig (Dev.tc n : Thread nD τ).2.kind .vmem S1x512 .f32).view.ref.isScScratch = false}
    {hsrc : (src0 : Memref sig .tc .vmem S1x512 .f32).view.WordExact} {hdst : (dst1 : Memref sig .tc .vmem S1x512 .f32).view.WordExact}
    {hsem : DmaTarget.Typed .vmem (.dma recvS.sem) (.remote (Dev.tc n : Thread nD τ) (dst1 : Memref sig .tc .vmem S1x512 .f32) (.dma sendS.sem) hsc)}
    {α : Type} {Q : α → sProp 𝕄} {k : PUnit → Prog (TpuEff nD τ sig (Elt F) Λ₀ .tc) α}
    (fs : Buf (Elt F) ((src0 : Memref sig .tc .vmem S1x512 .f32).view.loc (c : Thread nD τ)))
    (fn : Buf (Elt F) ((dst1 : Memref sig .tc .vmem S1x512 .f32).view.loc (peer c : Thread nD τ)))
    (hfs : rd0 c fs = colSum (xstg m ρ c)) (W : Waits sig Unit) :
    iprop(cellInv ER (sched m ρ) (K (c, 1)) (sendCell c) ∗ cellInv ER (sched m ρ) (K (peer c, 2)) (recvCell (peer c))
        ∗ slot0Pts c fullShare.right fs ∗ slot1Pts (peer c) fn
        ∗ owes (c : Thread nD τ) (tallyAt (recvCell (peer c)) () N) W
        ∗ dutyTok ER (sendCell c) 0 false ∗ reached ER (sendCell c) 0
        ∗ dutyTok ER (recvCell (peer c)) 0 false ∗ reached ER (recvCell (peer c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src0 (.remote (Dev.tc n : Thread nD τ) dst1 (.dma sendS.sem) hsc) (.dma recvS.sem) hsrc hdst hsem) k) Q) := by
  subst hn
  unfold slot0Pts slot1Pts
  exact Rounds.wp_send_pointsTo 𝒱₀ ER (sched m ρ) (c : Thread nD τ) none (κ₁ := K (c, 1)) (κ₂ := K (peer c, 2))
    (r₁ := 0) (r₂ := 0) (d₁ := false) (d₂ := false) (fd := fn)
    (by rw [duties_send]; exact Finset.mem_singleton_self _) (by rw [duties_recv]; exact Finset.mem_singleton_self _)
    () () N rfl (amount_send m ρ c false) (amount_recv m ρ (peer c) false) 0 (by rw [zero_add]) (W := W)
    (by rw [payload_send]; unfold sendPay slot0Pts; iintro H; iexists fs; iexact H)
    (by
      rw [payload_recv]; unfold recvPay slot1Pts
      iintro H
      iexists ((dst1 : Memref sig .tc .vmem S1x512 .f32).view.write (Elt F) fn ((src0 : Memref sig .tc .vmem S1x512 .f32).view.read (Elt F) fs) Finset.univ)
      isplitr
      · ipureintro; rw [rd1_land (peer c) c fn fs, hfs, peer_peer]
      · iexact H)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m ρ K c ∗ cred (tallyAt (barCell c) () 1) ∗ cred (tallyAt (recvCell c) () N) ∗ levAts L lv ∗ ∃ f, scrPts c f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (outAt m ρ c))

/-- A load of slot 0 of the scratch buffer, through any share of it; -/
theorem wp_load_slot0 (c : Dev nD) (q : PosShare TreeShare) (f : Buf (Elt F) ((src0 : Memref sig .tc .vmem S1x512 .f32).view.loc (c : Thread nD τ)))
    {hl : (sM : Memref sig .tc .vmem S2x1x512 .f32).view.LoadsAt r0.toLoadRect} {α : Type} {Q : α → sProp 𝕄}
    {k : (r0.toLoadRect.shape.Idx → Elt F .f32) → Prog (TpuEff nD τ sig (Elt F) Λ₀ .tc) α} :
    slot0Pts c q f ⊢ iprop((slot0Pts c q f -∗ wp frame (wpE (defs₀ (F := F)) 𝒱₀ (c : Thread nD τ) none) Set.univ (k (rd0 c f)) Q)
        -∗ wp frame (wpE (defs₀ (F := F)) 𝒱₀ (c : Thread nD τ) none) Set.univ (.op (.load sM r0.toLoadRect hl) k) Q) := by
  unfold slot0Pts
  exact wp_load 𝒱₀ (c : Thread nD τ) none Set.univ (m := sM) load0_sub
/-- a store of `w` into it; -/
theorem wp_store_slot0 (c : Dev nD) (f : Buf (Elt F) ((src0 : Memref sig .tc .vmem S1x512 .f32).view.loc (c : Thread nD τ)))
    (w : r0.shape.Idx → Elt F .f32)
    {hx : ((sM : Memref sig .tc .vmem S2x1x512 .f32).access r0).Stores Finset.univ} {hm : (Finset.univ : Finset r0.shape.Idx) = Finset.univ ∨ ∀ a, r0.stride a = 1}
    {α : Type} {Q : α → sProp 𝕄} {k : PUnit → Prog (TpuEff nD τ sig (Elt F) Λ₀ .tc) α} :
    slot0Pts c fullShare f
      ⊢ iprop((slot0Pts c fullShare (((sM : Memref sig .tc .vmem S2x1x512 .f32).access r0).write (Elt F) f w Finset.univ)
            -∗ wp frame (wpE (defs₀ (F := F)) 𝒱₀ (c : Thread nD τ) none) Set.univ (k ⟨⟩) Q)
        -∗ wp frame (wpE (defs₀ (F := F)) 𝒱₀ (c : Thread nD τ) none) Set.univ (.op (.store sM r0 w Finset.univ hx hm) k) Q) := by
  unfold slot0Pts
  exact wp_store 𝒱₀ (c : Thread nD τ) none Set.univ (m := sM) (r := r0) (Mk := Finset.univ) store0_sub
/-- a load of slot 1. -/
theorem wp_load_slot1 (c : Dev nD) (f : Buf (Elt F) ((dst1 : Memref sig .tc .vmem S1x512 .f32).view.loc (c : Thread nD τ)))
    {hl : (sM : Memref sig .tc .vmem S2x1x512 .f32).view.LoadsAt r1.toLoadRect} {α : Type} {Q : α → sProp 𝕄}
    {k : (r1.toLoadRect.shape.Idx → Elt F .f32) → Prog (TpuEff nD τ sig (Elt F) Λ₀ .tc) α} :
    slot1Pts c f ⊢ iprop((slot1Pts c f -∗ wp frame (wpE (defs₀ (F := F)) 𝒱₀ (c : Thread nD τ) none) Set.univ (k (rd1 c f)) Q)
        -∗ wp frame (wpE (defs₀ (F := F)) 𝒱₀ (c : Thread nD τ) none) Set.univ (.op (.load sM r1.toLoadRect hl) k) Q) := by
  unfold slot1Pts
  exact wp_load 𝒱₀ (c : Thread nD τ) none Set.univ (m := sM) load1_sub

set_option maxHeartbeats 1600000 in
/-- The body, stepped from `bodyPre` in program order to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold bodyPre ghost invs
  iintro ⟨⟨⟨⟨⟨#HIbar, #HIsnd, #HIrcv, #HIbarP, #HIrcvP⟩, HatB, HatS, HatV, #HrBP, #HrVP, #HrS, #HrV, HtBP, HtVP, HtS⟩, HcB, HcV, #Hlev, ⟨%f0, Hscr⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  simp only [dev1_eq c]
  -- the scratch buffer cut into slot 1, slot 0 and what is left
  ihave Hs := (scr_split c f0) $$ Hscr
  icases Hs with ⟨Hs1, Hs0, Hrest⟩
  -- the entry signal to the partner's barrier cell: slot 1 goes with it, and that this device stands at round 0 of its receive cell
  iapply (Rounds.wp_signal 𝒱₀ ER (sched m ρ) (c : Thread nD τ) none (dst := (peer c : Thread nD τ)) (κ := K (peer c, 0))
      (d := false) (by rw [duties_bar]; exact Finset.mem_singleton_self _) ((amount_bar m ρ (peer c) false).trans (by decide)) () (O₁ c) rfl)
    $$ [HO HtBP Hs1]
  · isplitr; · iexact HIbarP
    isplitl [HO]; · iexact HO
    isplitl [HtBP]; · iexact HtBP
    isplitl [Hs1]
    · rw [payload_bar]; unfold barPay; rw [peer_peer]
      isplitl [Hs1]; · iexists f0; iexact Hs1
      iexact HrV
    · iexact HrBP
  iintro HO
  unfold O₁
  -- the block of x; its column sums into slot 0
  iapply (wp_load 𝒱₀ (c : Thread nD τ) none Set.univ (m := xM) (Finset.subset_univ _)) $$ Hx; iintro Hx
  rw [read_x]
  iapply (wp_load_slot0 c fullShare f0) $$ Hs0; iintro Hs0
  iapply (wp_store_slot0 c f0 (k0_pay2 (xstg m ρ c))) $$ Hs0; iintro Hs0
  -- the wait on the own barrier cell, still owing the partner's receive credit: the partner's slot 1 arrives
  iapply (Rounds.wp_wait_rest_token 𝒱₀ ER (sched m ρ) (c : Thread nD τ) none (κ := K (c, 0))
      (wpE_semWait_eq 𝒱₀ (c : Thread nD τ) none Set.univ) (Set.mem_univ _) () (O := tallyAt (recvCell (peer c)) () N) (W := W) (R := 0) (m := 0) (T := ∅)
      (by rw [expect_bar]; decide)) $$ [HcB HO HatB]
  · isplitr; · iexact HIbar
    isplitl [HcB]; · iexact HcB
    isplitl [HO]; · iexact HO
    isplitr; · iapply (mayWait_bar c); iexact Hlev
    iexact HatB
  iintro ⟨HO, HatB, -, Hpay⟩
  ihave Hp := (Entails.of_eq (rest_bar m ρ c)) $$ Hpay
  unfold barPay
  icases Hp with ⟨⟨%fn, Hs1P⟩, #HrVP'⟩
  -- slot 0 halved: the right half is lent to the transfer, the left half stays for the load
  ihave Hh := (slot0_halve c _) $$ Hs0
  icases Hh with ⟨Hs0L, Hs0R⟩
  -- the transfer of slot 0 into the partner's slot 1
  iapply (wp_send_pair m ρ K c _ (dev2_eq c) _ fn (rd0_store c f0 (k0_pay2 (xstg m ρ c))) (insert (SemLoc.reg barS, ()) W)) $$ [Hs0R Hs1P HO HtS HtVP]
  · isplitr; · iexact HIsnd
    isplitr; · iexact HIrcvP
    isplitl [Hs0R]; · iexact Hs0R
    isplitl [Hs1P]; · iexact Hs1P
    isplitl [HO]; · iexact HO
    isplitl [HtS]; · iexact HtS
    isplitr; · iexact HrS
    isplitl [HtVP]; · iexact HtVP
    iexact HrVP
  iintro ⟨HcS, HO⟩
  -- the wait on the receive cell: the own slot 1 comes back holding the partner's column sums
  iapply (Rounds.wp_wait_rest_token 𝒱₀ ER (sched m ρ) (c : Thread nD τ) none (κ := K (c, 2))
      (wpE_waitDma2_eq 𝒱₀ (c : Thread nD τ) none Set.univ) (Set.mem_univ _) () (O := 0) (W := insert (SemLoc.reg barS, ()) W) (R := 0) (m := 0) (T := ∅)
      (by rw [Nat.zero_add, expect_recv] <;> rfl)) $$ [HcV HO HatV]
  · isplitr; · iexact HIrcv
    isplitl [HcV]; · iexact HcV
    isplitl [HO]; · iexact HO
    isplitr; · rw [MayWait_zero]; iempintro
    iexact HatV
  iintro ⟨HO, HatV, -, Hpay⟩
  ihave Hp := (Entails.of_eq (rest_recv m ρ c)) $$ Hpay
  unfold recvPay
  icases Hp with ⟨%f1, %hf1, Hs1⟩
  -- both slots loaded (slot 0 through the half kept), their sum stored into the result block
  iapply (wp_load_slot0 c fullShare.left _) $$ Hs0L; iintro Hs0L
  iapply (wp_load_slot1 c f1) $$ Hs1; iintro Hs1
  iapply (wp_load 𝒱₀ (c : Thread nD τ) none Set.univ (m := oM) (Finset.subset_univ _)) $$ Hout; iintro Hout
  iapply (wp_store 𝒱₀ (c : Thread nD τ) none Set.univ (m := oM) (r := ro) (Mk := Finset.univ) (Finset.subset_univ _)) $$ Hout; iintro Hout
  rw [write_out]
  have e0 : rd0 c (((sM : Memref sig .tc .vmem S2x1x512 .f32).access r0).write (Elt F) f0 (k0_pay2 (xstg m ρ c)) Finset.univ) = colSum (xstg m ρ c) :=
    rd0_store c f0 _
  rw [e0, hf1]
  -- the wait on the send cell: the lent half of slot 0 comes back
  iapply (Rounds.wp_wait_rest_token 𝒱₀ ER (sched m ρ) (c : Thread nD τ) none (κ := K (c, 1))
      (wpE_waitDma2_eq 𝒱₀ (c : Thread nD τ) none Set.univ) (Set.mem_univ _) () (O := 0)
      (W := insert (SemLoc.dma recvS.sem, ()) (insert (SemLoc.reg barS, ()) W)) (R := 0) (m := 0) (T := ∅)
      (by rw [Nat.zero_add, expect_send] <;> rfl)) $$ [HcS HO HatS]
  · isplitr; · iexact HIsnd
    isplitl [HcS]; · iexact HcS
    isplitl [HO]; · iexact HO
    isplitr; · rw [MayWait_zero]; iempintro
    iexact HatS
  iintro ⟨HO, HatS, -, Hpay⟩
  ihave Hp := (Entails.of_eq (rest_send m ρ c)) $$ Hpay
  unfold sendPay
  icases Hp with ⟨%g0, Hs0R⟩
  -- the halves of slot 0 put together; the two own cells close; the scratch buffer whole again
  ihave Hs0 := (slot0_rejoin c _ g0) $$ [Hs0L Hs0R]
  · isplitl [Hs0L] <;> iassumption
  imod (Rounds.cell_close ER (sched m ρ) (Set.mem_univ (K (c, 1))) (fun h => h) (R := 0 + 1) (duties_later m ρ (sendCell c))) $$ [HatS] with HzS
  · isplitr; · iexact HIsnd
    iexact HatS
  imod (Rounds.cell_close ER (sched m ρ) (Set.mem_univ (K (c, 2))) (fun h => h) (R := 0 + 1) (duties_later m ρ (recvCell c))) $$ [HatV] with HzV
  · isplitr; · iexact HIrcv
    iexact HatV
  ihave Hscr := (scr_join c _ _ _) $$ [Hs1 Hs0 Hrest]
  · isplitl [Hs1]; · iexact Hs1
    isplitl [Hs0] <;> iassumption
  rw [wp_ret]; imodintro
  iapply Hk
  unfold bodyPost Φ₁ Dat.owesAt Pipeline.owesWithin
  rw [show (dats m ρ 0 c).owed t₀.succ = 0 from rfl]
  isplitl [Hscr HzS HzV]
  · isplitl [Hscr]; · iexact Hscr
    isplitl [HzS]; · iexact HzS
    iexact HzV
  isplitl [HO]
  · iexists (insert (SemLoc.dma sendS.sem, ()) (insert (SemLoc.dma recvS.sem, ()) (insert (SemLoc.reg barS, ()) W)))
    isplitr; · ipureintro; exact fun _ _ => Or.inl trivial
    iexact HO
  isplitl [Hx]
  · iexists _; isplitr; · (ipureintro; rfl)
    iexact Hx
  iexists _; isplitr; · (ipureintro; rfl)
  iexact Hout

end Body

end Cert.KernelIdeal.Pf

end
-- ==== Proof.Launch.lean ====
/-
  The launch: every device's body obligation made into the run of @main on the whole mesh.

  The protocol's ghost state is allocated for all devices at once — the barrier semaphore is the runtime's, not scoped to
  the launch, so its counter at zero arrives among the launch's unscoped semaphores —: each device's three cells get their
  round state, positions and duty tokens; every cell's invariant is allocated; the tokens are dealt to the devices that
  PAY the duties (a barrier's and a receive cell's token to the partner, a send cell's to the device itself).  The credit a
  device starts with on a cell is the sum of what all devices owe it: one unit on its barrier cell and the slot's credit
  on its receive cell, both owed by its partner.  The run's post reads every device's result array off the pipeline's
  final arrays: the result window is the whole array, written back once with what the body left in its staging buffer.
-/
import proofs.«901094_g7700000000001095_dist_sum_ax0_xy_m1024_n512_v7x_xy2x2_bf16_1_alg».proof.Proof.Body

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body obligation -/

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx] <;> iassumption
  · iintro H; iexact H

/-! ## The ghost state at launch -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def protoCells : Finset (GSem nD τ sig) := Finset.univ.map ⟨kcell, kcell_injective⟩

/-- A device's own cells' duty tokens as minted: one per cell. -/
abbrev tokOf (ck : Dev nD × Fin 3) : GSem nD τ sig × ℕ × Bool := (kcell ck, 0, false)
theorem tokOf_injective : Function.Injective (tokOf : Dev nD × Fin 3 → GSem nD τ sig × ℕ × Bool) :=
  fun a b h => kcell_injective (congrArg Prod.fst h)
def protoToks : Finset (GSem nD τ sig × ℕ × Bool) := Finset.univ.map ⟨tokOf, tokOf_injective⟩

def u₀ : UU :=
  (initOf (Pipeline.cells cfgs cellOf_inj) (Pipeline.launchToks cfgs cellOf_inj), initOf protoCells protoToks)

/-- The duty tokens of device `c`'s own cells. -/
def toks (c : Dev nD) : sProp 𝕄 :=
  iprop(dutyTok ER (barCell c) 0 false ∗ dutyTok ER (sendCell c) 0 false ∗ dutyTok ER (recvCell c) 0 false)

/-- What the launch element deals device `c`. -/
def G (c : Dev nD) : sProp 𝕄 :=
  iprop((bigSep Finset.univ fun k : Fin 3 => roundState ER (sched m ρ) (kcell (c, k)) 0)
    ∗ (bigSep Finset.univ fun k : Fin 3 => iprop(atPos ER (kcell (c, k)) 0 ∅ 0 ∗ reached ER (kcell (c, k)) 0)) ∗ toks c)

/-- What the global step makes of it. -/
def G' (c : Dev nD) : sProp 𝕄 := iprop(∃ K, ghost m ρ K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

theorem fund_proto : BI.own (ER (initOf protoCells protoToks)) ⊢ (|==> bigSep Finset.univ (G m ρ) : sProp 𝕄) := by
  have hX (Φ : GSem nD τ sig → sProp 𝕄) : bigSep protoCells Φ = bigSep Finset.univ fun c : Dev nD => bigSep Finset.univ fun k : Fin 3 => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by unfold toks; rw [bigSep_fin3]; rfl
  iintro HX
  imod (Rounds.fund ER (sched m ρ) protoCells protoToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 3 → ℕ) : sProp 𝕄 :=
  iprop((bigSep Finset.univ fun ck : Dev nD × Fin 3 => cellInv ER (sched m ρ) (K ck) (kcell ck))
    ∗ bigSep Finset.univ fun ck : Dev nD × Fin 3 => reached ER (kcell ck) 0)

instance records_persistent (K : Dev nD × Fin 3 → ℕ) : BI.Persistent (records m ρ K) := by unfold records; infer_instance

theorem inv_at (K : Dev nD × Fin 3 → ℕ) (ck : Dev nD × Fin 3) :
    (bigSep Finset.univ fun ck : Dev nD × Fin 3 => (cellInv ER (sched m ρ) (K ck) (kcell ck) : sProp 𝕄)) ⊢ cellInv ER (sched m ρ) (K ck) (kcell ck) :=
  bigSep_elim (Finset.mem_univ ck)
omit [FloatOps F] in
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device `c`: its positions, and the tokens of the duties IT pays. -/
def payToks (c : Dev nD) : sProp 𝕄 :=
  iprop(dutyTok ER (barCell (peer c)) 0 false ∗ dutyTok ER (recvCell (peer c)) 0 false ∗ dutyTok ER (sendCell c) 0 false)
def linear (c : Dev nD) : sProp 𝕄 :=
  iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m ρ K ∗ linear c) ⊢ G' m ρ c := by
  unfold records linear payToks G' ghost invs
  iintro ⟨⟨#HI, #HR⟩, ⟨HaB, HaS, HaV⟩, HtBP, HtVP, HtS⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (peer c, 0)); iexact HI
    iapply (inv_at m ρ K (peer c, 2)); iexact HI
  isplitl [HaB]; · iexact HaB
  isplitl [HaS]; · iexact HaS
  isplitl [HaV]; · iexact HaV
  isplitr; · iapply (reached_at (F := F) (peer c, 0)); iexact HR
  isplitr; · iapply (reached_at (F := F) (peer c, 2)); iexact HR
  isplitr; · iapply (reached_at (F := F) (c, 1)); iexact HR
  isplitr; · iapply (reached_at (F := F) (c, 2)); iexact HR
  isplitl [HtBP]; · iexact HtBP
  isplitl [HtVP]; · iexact HtVP
  iexact HtS

omit [FloatOps F] in
/-- The tokens dealt across the pairing: a barrier's and a receive cell's token go to the partner, a send cell's stays. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv pairing (fun c : Dev nD => (dutyTok ER (barCell c) 0 false : sProp 𝕄)),
    bigSep_univ_equiv pairing (fun c : Dev nD => (dutyTok ER (recvCell c) 0 false : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 3 => iprop(∃ κ : ℕ, cellInv ER (sched m ρ) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (sched m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff {a b : Dev nD} : Iff (recvCell a = recvCell b) (a = b) :=
  ⟨fun h => Fin.ext (congrArg (fun g : GSem nD τ sig => g.1.1.val) h), fun h => h ▸ rfl⟩

omit [FloatOps F] in
/-- What device `d` owes device `c`'s barrier cell: a unit if `d` is `c`'s partner. -/
theorem owed_bar (d c : Dev nD) : O₀ d (barCell c) () = if d = peer c then 1 else 0 := by
  unfold O₀ O₁
  rw [Pi.add_apply, Finsupp.add_apply, tallyAt_ne_cell (fun h => recv_ne_bar (congrArg Prod.snd h).symm), tallyAt_apply, Finsupp.zero_apply, Nat.zero_add]
  by_cases h : d = peer c
  · subst h; rw [peer_peer, if_pos ⟨rfl, rfl⟩, if_pos rfl]
  · rw [if_neg (fun ⟨h1, _⟩ => h (by rw [← peer_peer d]; exact congrArg peer (bar_eq_iff.mp h1).symm)), if_neg h]

omit [FloatOps F] in
theorem owed_recv (d c : Dev nD) : O₀ d (recvCell c) () = if d = peer c then N else 0 := by
  unfold O₀ O₁
  rw [Pi.add_apply, Finsupp.add_apply, tallyAt_apply, tallyAt_ne_cell (fun h => recv_ne_bar (congrArg Prod.snd h)), Finsupp.zero_apply, Nat.add_zero]
  by_cases h : d = peer c
  · subst h; rw [peer_peer, if_pos ⟨rfl, rfl⟩, if_pos rfl]
  · rw [if_neg (fun ⟨h1, _⟩ => h (by rw [← peer_peer d]; exact congrArg peer (recv_eq_iff.mp h1).symm)), if_neg h]

omit [FloatOps F] in
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

omit [FloatOps F] in
theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c, Finset.sum_ite_eq' Finset.univ (peer c) fun _ => N,
    if_pos (Finset.mem_univ _)]

omit [FloatOps F] in
theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; unfold scrPts; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁
  iintro ⟨⟨%f, Hr⟩, HzS, HzV⟩
  isplitr; · iempintro
  isplitl [HzS HzV]
  · isplitl [HzS] <;> iassumption
  iexists f; unfold scrPts; iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of four devices, for any float values, from any memory with zero counters: every weakly fair
    execution of @main terminates, and every final state has each windowed array at the pipeline's final contents. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_proto m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-! ## The final arrays -/

/-- The argument array is an input: after the run it holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array's one block — the whole array — read back is what the body left in the staging buffer. -/
theorem finalA_o (c : Dev nD) :
    (win0_1.blk (0 : Fin 1)).view.read (Elt F) (finalA m ρ c (1 : Fin 2)) = outAt m ρ c := by
  unfold finalA
  rw [show cfg0.N = ((0 : Fin 1) : Fin cfg0.N).val + 1 from rfl, (dats m ρ 0 c).arrAt_succ (1 : Fin 2) (0 : Fin 1)]
  rw [show (cfg0.win (1 : Fin 2)).flush (0 : Fin 1) = true from by decide, if_pos rfl]
  exact View.read_write_univ _ _

/-- The run with every device's result named: its own column sums plus its partner's, of the argument blocks as launched. -/
theorem run_post : θ_run defs (onTc (τ := τ) (main (F := F))) ⟨m, fun _ => 0, ρ⟩ (RunPost m) := by
  refine (θ_run defs _ _).mono (fun r h c => ⟨(h c (1 : Fin 2)).trans ?_, (h c (0 : Fin 2)).trans (finalA_x m ρ c)⟩) (run_main (F := F) m ρ)
  -- the result window's one block is the whole 1×512 array at block index 0: reading it reads the array
  have hzo : (fun a => (win0_1.index (0 : Fin 1)) a * main_v1.ty.shape.size a) = fun _ => 0 :=
    funext fun a => by fin_cases a <;> decide
  have hro := fun f => Memref.read_access_unit_zero (Elt F) main_v1 hzo (fun a => by fin_cases a <;> decide) f
  -- and the argument window's one block is the whole 1024×512 block, on this device and on its partner
  have hzx : (fun a => (win0_0.index (0 : Fin 1)) a * main_arg0.ty.shape.size a) = fun _ => 0 :=
    funext fun a => by fin_cases a <;> decide
  have hrx := fun f => Memref.read_access_unit_zero (Elt F) main_arg0 hzx (fun a => by fin_cases a <;> decide) f
  have ho := finalA_o (F := F) m ρ c
  unfold outAt xstg s₀ at ho
  rw [hro, hrx, hrx] at ho
  exact ho

/-- info: 'Cert.KernelIdeal.Pf.run_post' depends on axioms: [propext, Classical.choice, Quot.sound] -/
#guard_msgs in #print axioms run_post

end Cert.KernelIdeal.Pf

end
-- ==== Proof.BitsSpec.lean ====
/-
  The kernel on one device, as a function of values.  Device `c` of the 2×2 mesh holds the block of `x` at rows
  `1024·(c / 2) …`, columns `512·(c % 2) …`.  Its partner across the first mesh axis, `peer c`, holds the other half of
  the rows of the same columns.  Each device sums its block over the rows (`colSum`), sends that row of 512 sums to its
  partner and adds what it receives: `outVal X Xp` is the result row on a device whose block is `X` and whose partner's
  block is `Xp`.
-/
import proofs.«901094_g7700000000001095_dist_sum_ax0_xy_m1024_n512_v7x_xy2x2_bf16_1_alg».proof.Proof.Gen.Kernel.Skeleton

noncomputable section

namespace Cert.Kernel.Pf

open Cert.Kernel Cert.Kernel.Gen
open Idealize.ShloMosaic Idealize.SL.Sem

variable {F : FTy → Type} [FloatOps F]

/-- The partner of device `c`: the device at the other coordinate of the first mesh axis and the same coordinate of the
    second (devices are numbered row-major, so the first axis has stride 2). -/
def peer (c : Dev nD) : Dev nD := ⟨(c.val + 2) % 4, Nat.mod_lt _ (by decide)⟩

theorem peer_peer (c : Dev nD) : peer (peer c) = c := by revert c; decide
theorem peer_ne (c : Dev nD) : peer c ≠ c := by revert c; decide

/-- The sums over the 1024 rows of a block, as the 1×1×512 row the kernel keeps in its scratch buffer. -/
def colSum (X : Vec F S1024x512 .f32) : Vec F S1x1x512 .f32 := k0_pay2 X

/-- A device's result row: its own column sums plus its partner's. -/
def outVal (X Xp : Vec F S1024x512 .f32) : Vec F S1x512 .f32 := k0_pay1 (colSum X) (colSum Xp)

/-- What the run of the kernel on the whole mesh establishes, as a predicate on final states: every device's result
    buffer holds `outVal` of its own and its partner's argument block, and its argument buffer is unchanged. -/
def RunPost (m : (ℓ : Loc nD τ sig) → Buf (Elt F) ℓ) : PUnit × MemSt nD τ sig (Elt F) → Prop := fun r =>
  ∀ c : Dev nD,
    r.2.mem ((c.tc : Thread nD τ).loc main_v1)
        = outVal (m ((c.tc : Thread nD τ).loc main_arg0)) (m (((peer c).tc : Thread nD τ).loc main_arg0))
      ∧ r.2.mem ((c.tc : Thread nD τ).loc main_arg0) = m ((c.tc : Thread nD τ).loc main_arg0)

end Cert.Kernel.Pf

end
-- ==== Proof.BitsProto.lean ====
/-
  The protocol of the kernel on the 2×2 mesh, under the rounds discipline.

  Device `c` and its partner `peer c` (the other coordinate on the first mesh axis) exchange one row of 512 column sums.
  Per device three semaphore cells, each with ONE duty in ONE round:
  * the barrier cell: one unit, paid by the partner's entry signal.  With it the partner hands over slot 1 of its own
    scratch buffer (where this device's transfer will land) and the fact that it stands at round 0 of its receive cell;
  * the receive cell: the transfer's credit, paid by the partner's transfer into slot 1 of this device's scratch buffer.
    It hands this device slot 1 holding the partner's column sums;
  * the send cell: the same credit, paid by this device's own transfer once slot 0 has been read.  It hands back the
    half share of slot 0 lent to the transfer; the other half stays with the device, which reads slot 0 while the transfer
    is still pending.
  A device owes its partner's barrier cell one unit and its partner's receive cell the credit; it waits on its barrier
  cell still owing the latter, so barrier cells lie below receive cells.
-/
import proofs.«901094_g7700000000001095_dist_sum_ax0_xy_m1024_n512_v7x_xy2x2_bf16_1_alg».proof.Proof.BitsSpec
import proofs.«901094_g7700000000001095_dist_sum_ax0_xy_m1024_n512_v7x_xy2x2_bf16_1_alg».proof.Proof.Gen.Kernel
import proofs.«901094_g7700000000001095_dist_sum_ax0_xy_m1024_n512_v7x_xy2x2_bf16_1_alg».proof.Proof.Gen.Kernel.Skeleton
import proofs.«901094_g7700000000001095_dist_sum_ax0_xy_m1024_n512_v7x_xy2x2_bf16_1_alg».proof.Proof.Gen.Kernel.Launch
import Idealize.ShloMosaic.Lib.Pipeline.Launch
import Idealize.ShloMosaic.Lib.Pipeline.Kit
import Idealize.ShloMosaic.Lib.Writes
import Idealize.ShloMosaic.Lib.Tactic

noncomputable section

namespace Cert.Kernel.Pf

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside the protocol's own -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The partner -/

/-- Both device chains of the body — the entry signal's and the transfer's — name the partner. -/
theorem dev1_eq (c : Dev nD) : (⟨k0_dev1 c, k0_dev1_lt c⟩ : Dev nD) = peer c :=
  Fin.ext ((k0_dev1_eq c).trans (by revert c; decide))
theorem dev2_eq (c : Dev nD) : (⟨k0_dev2 c, k0_dev2_lt c⟩ : Dev nD) = peer c :=
  Fin.ext ((k0_dev2_eq c).trans (by revert c; decide))

def pairing : Dev nD ≃ Dev nD := ⟨peer, peer, peer_peer, peer_peer⟩

/-! ## The memrefs, the two slots of the scratch buffer, the cells -/

abbrev xM : Memref sig .tc .vmem S1024x512 .f32 := Memref.whole cc0_stg0_0
abbrev oM : Memref sig .tc .vmem S1x512 .f32 := Memref.whole cc0_stg1_0
abbrev sM : Memref sig .tc .vmem S2x1x512 .f32 := Memref.whole cc0_scratch0

abbrev rx : Rect S1024x512 := Rect.unit (s := S1024x512) ![0, 0] S1024x512.size inb_S1024x512_S1024x512_0_0
abbrev ro : Rect S1x512 := Rect.unit (s := S1x512) ![0, 0] S1x512.size inb_S1x512_S1x512_0_0
/-- Slot 0 and slot 1 of the scratch buffer, as rectangles of it. -/
abbrev r0 : Rect S2x1x512 := Rect.unit (s := S2x1x512) ![0, 0, 0] S1x1x512.size inb_S2x1x512_S1x1x512_0_0_0
abbrev r1 : Rect S2x1x512 := Rect.unit (s := S2x1x512) ![1, 0, 0] S1x1x512.size inb_S2x1x512_S1x1x512_1_0_0

/-- The transfer's source (slot 0) and destination (slot 1), each a 1×512 view. -/
abbrev src0 : Memref sig .tc .vmem S1x512 .f32 := (sM.slice r0 (fun _ => rfl)).squeeze S1x512 squeezes_S1x1x512_S1x512
abbrev dst1 : Memref sig .tc .vmem S1x512 .f32 := (sM.slice r1 (fun _ => rfl)).squeeze S1x512 squeezes_S1x1x512_S1x512

/-- The runtime's barrier semaphore of collective id 0 (unscoped); the send and receive DMA semaphores (scoped scratch). -/
abbrev barS : Sem sig := (SemArray.scalar (sig.barrier 0 rfl) : Sems sig S_).sem
abbrev sendS : DmaSems sig S_ := cc0_scratch1
abbrev recvS : DmaSems sig S_ := cc0_scratch2

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's own (scoped) semaphores as the launch indexes them; all three of the protocol's as this proof does. -/
abbrev osem : Fin 2 → SemLoc sig := fun | 0 => .dma sendS.sem | 1 => .dma recvS.sem
abbrev csem : Fin 3 → SemLoc sig := fun | 0 => .reg barS | 1 => .dma sendS.sem | 2 => .dma recvS.sem
abbrev kcell (ck : Dev nD × Fin 3) : GSem nD τ sig := ((ck.1 : Thread nD τ), csem ck.2)

/-- The credit of one transfer of a slot. -/
abbrev N : ℕ := (dst1 : Memref sig .tc .vmem S1x512 .f32).view.dmaCredit
theorem N_pos : 0 < N := View.dmaCredit_pos _ (by decide)

/-! ## The two slots as regions of the scratch buffer -/

omit [FloatOps F] in
theorem set_src0 : (src0 : Memref sig .tc .vmem S1x512 .f32).view.set = r0.set := by
  simp only [Memref.view_squeeze, Memref.view_slice, Memref.view_whole, View.set_reshape, View.set_slice_whole]
omit [FloatOps F] in
theorem set_dst1 : (dst1 : Memref sig .tc .vmem S1x512 .f32).view.set = r1.set := by
  simp only [Memref.view_squeeze, Memref.view_slice, Memref.view_whole, View.set_reshape, View.set_slice_whole]
omit [FloatOps F] in
/-- The slots share no element: they differ on the first axis. -/
theorem slots_disjoint : Disjoint (src0 : Memref sig .tc .vmem S1x512 .f32).view.set (dst1 : Memref sig .tc .vmem S1x512 .f32).view.set := by
  rw [set_src0, set_dst1]
  exact Rect.unit_disjoint (0 : Fin 3) (Or.inl (by decide))

/-! ## Contents -/

/-- Device `c`'s block of `x`, as the pipeline stages it. -/
def xstg (c : Dev nD) : (cc0_stg0_0 : Ref sig .tc).ty.Contents (Elt F) :=
  (win0_0.blk (0 : Fin 1)).view.read (Elt F) ((s₀ m ρ).mem ((c : Thread nD τ).loc main_arg0))

/-- What a load of slot `k` reads off the scratch buffer's contents. -/
abbrev rd0 (c : Dev nD) (f : Buf (Elt F) ((sM : Memref sig .tc .vmem S2x1x512 .f32).view.loc (c : Thread nD τ))) : Vec F S1x1x512 .f32 :=
  (sM : Memref sig .tc .vmem S2x1x512 .f32).view.readAt (Elt F) r0.toLoadRect f
abbrev rd1 (c : Dev nD) (f : Buf (Elt F) ((sM : Memref sig .tc .vmem S2x1x512 .f32).view.loc (c : Thread nD τ))) : Vec F S1x1x512 .f32 :=
  (sM : Memref sig .tc .vmem S2x1x512 .f32).view.readAt (Elt F) r1.toLoadRect f

/-- Share `q` of slot 0 of device `c`'s scratch buffer at contents `f`; all of slot 1. -/
def slot0Pts (c : Dev nD) (q : PosShare TreeShare) (f : Buf (Elt F) ((src0 : Memref sig .tc .vmem S1x512 .f32).view.loc (c : Thread nD τ))) : sProp 𝕄 :=
  (src0 : Memref sig .tc .vmem S1x512 .f32).view.loc (c : Thread nD τ) ↦[(src0 : Memref sig .tc .vmem S1x512 .f32).view.set]{q} f
def slot1Pts (c : Dev nD) (f : Buf (Elt F) ((dst1 : Memref sig .tc .vmem S1x512 .f32).view.loc (c : Thread nD τ))) : sProp 𝕄 :=
  (dst1 : Memref sig .tc .vmem S1x512 .f32).view.loc (c : Thread nD τ) ↦[(dst1 : Memref sig .tc .vmem S1x512 .f32).view.set]{fullShare} f
def xPts (c : Dev nD) : sProp 𝕄 :=
  (xM : Memref sig .tc .vmem S1024x512 .f32).view.loc (c : Thread nD τ) ↦[(xM : Memref sig .tc .vmem S1024x512 .f32).view.set]{fullShare} xstg m ρ c

omit [FloatOps F] in
instance slot0Pts_storable (c : Dev nD) (q) (f) : BI.Storable (upEmb : UEmb _ 𝕄) (slot0Pts (F := F) c q f) := by unfold slot0Pts; infer_instance
omit [FloatOps F] in
instance slot1Pts_storable (c : Dev nD) (f) : BI.Storable (upEmb : UEmb _ 𝕄) (slot1Pts (F := F) c f) := by unfold slot1Pts; infer_instance

/-! ## The schedule -/

/-- The partner's entry signal hands `c` the partner's landing slot and that the partner stands at round 0 of its receive cell. -/
def barPay (c : Dev nD) : sProp 𝕄 := iprop((∃ f, slot1Pts (peer c) f) ∗ reached ER (recvCell (peer c)) 0)
/-- The partner's transfer hands `c` its slot 1 holding the partner's column sums. -/
def recvPay (c : Dev nD) : sProp 𝕄 := iprop(∃ f, ⌜rd1 c f = colSum (xstg m ρ (peer c))⌝ ∗ slot1Pts c f)
/-- `c`'s own transfer hands back the half of slot 0 it was lent. -/
def sendPay (c : Dev nD) : sProp 𝕄 := iprop(∃ f, slot0Pts c fullShare.right f)

abbrev IsCell (g : GSem nD τ sig) : Prop := g.1.2 = .tc ∧ (g.2 = .reg barS ∨ g.2 = .dma sendS.sem ∨ g.2 = .dma recvS.sem)

/-- One round, round 0; every cell one duty (`false`): a barrier cell one unit, a send or receive cell the slot's credit. -/
def sched : Rounds.Schedule (GSem nD τ sig) Bool 𝕄 where
  duties g r := if r = 0 ∧ IsCell g then {false} else ∅
  unitless _ := False
  amount g _ _ := if g.2 = .reg barS then 1 else N
  payload g _ _ :=
    if g.2 = .reg barS then barPay g.1.1
    else if g.2 = .dma recvS.sem then recvPay m ρ g.1.1
    else if g.2 = .dma sendS.sem then sendPay g.1.1
    else iprop(emp)
  amount_pos g _ _ _ := by
    by_cases h : g.2 = .reg barS
    · rw [if_pos h]; exact Nat.one_pos
    · rw [if_neg h]; exact N_pos

instance sched_payload_storable (g : GSem nD τ sig) (r : ℕ) (d : Bool) :
    BI.Storable (upEmb : UEmb _ 𝕄) ((sched (F := F) m ρ).payload g r d) := by
  show BI.Storable upEmb (if g.2 = .reg barS then barPay g.1.1 else if g.2 = .dma recvS.sem then recvPay m ρ g.1.1
    else if g.2 = .dma sendS.sem then sendPay g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

theorem duties_bar : (sched (F := F) m ρ).duties (barCell c) 0 = {false} := by dsimp only [sched]; exact if_pos ⟨rfl, rfl, .inl rfl⟩
theorem duties_send : (sched (F := F) m ρ).duties (sendCell c) 0 = {false} := by dsimp only [sched]; exact if_pos ⟨rfl, rfl, .inr (.inl rfl)⟩
theorem duties_recv : (sched (F := F) m ρ).duties (recvCell c) 0 = {false} := by dsimp only [sched]; exact if_pos ⟨rfl, rfl, .inr (.inr rfl)⟩
theorem duties_later (g : GSem nD τ sig) : ∀ r, 1 ≤ r → (sched (F := F) m ρ).duties g r = ∅ :=
  fun r hr => by dsimp only [sched]; rw [if_neg fun h => by omega]

theorem amount_bar (d : Bool) : (sched (F := F) m ρ).amount (barCell c) 0 d = 1 := by dsimp only [sched]; exact if_pos rfl
theorem amount_send (d : Bool) : (sched (F := F) m ρ).amount (sendCell c) 0 d = N := by dsimp only [sched]; exact if_neg send_ne_bar
theorem amount_recv (d : Bool) : (sched (F := F) m ρ).amount (recvCell c) 0 d = N := by dsimp only [sched]; exact if_neg recv_ne_bar

theorem expect_bar : (sched (F := F) m ρ).expect (barCell c) 0 = 1 := by
  unfold Schedule.expect Schedule.amountOf; rw [duties_bar, Finset.sum_singleton, amount_bar]
theorem expect_send : (sched (F := F) m ρ).expect (sendCell c) 0 = N := by
  unfold Schedule.expect Schedule.amountOf; rw [duties_send, Finset.sum_singleton, amount_send]
theorem expect_recv : (sched (F := F) m ρ).expect (recvCell c) 0 = N := by
  unfold Schedule.expect Schedule.amountOf; rw [duties_recv, Finset.sum_singleton, amount_recv]

theorem payload_bar (d : Bool) : (sched (F := F) m ρ).payload (barCell c) 0 d = barPay c := by dsimp only [sched]; rw [if_pos rfl]
theorem payload_send (d : Bool) : (sched (F := F) m ρ).payload (sendCell c) 0 d = sendPay c := by
  dsimp only [sched]; rw [if_neg send_ne_bar, if_neg send_ne_recv, if_pos rfl]
theorem payload_recv (d : Bool) : (sched (F := F) m ρ).payload (recvCell c) 0 d = recvPay m ρ c := by
  dsimp only [sched]; rw [if_neg recv_ne_bar, if_pos rfl]

/-- The rest of each cell's round, no duty taken: its one payload. -/
theorem rest_bar : bigSep ((sched (F := F) m ρ).duties (barCell c) 0 \ ∅) (fun d => (sched (F := F) m ρ).payload (barCell c) 0 d) = barPay c := by
  rw [Finset.sdiff_empty, duties_bar, bigSep_singleton, payload_bar]
theorem rest_send : bigSep ((sched (F := F) m ρ).duties (sendCell c) 0 \ ∅) (fun d => (sched (F := F) m ρ).payload (sendCell c) 0 d) = sendPay c := by
  rw [Finset.sdiff_empty, duties_send, bigSep_singleton, payload_send]
theorem rest_recv : bigSep ((sched (F := F) m ρ).duties (recvCell c) 0 \ ∅) (fun d => (sched (F := F) m ρ).payload (recvCell c) 0 d) = recvPay m ρ c := by
  rw [Finset.sdiff_empty, duties_recv, bigSep_singleton, payload_recv]

end Sched

/-! ## What each device owes at launch; the levels -/

/-- Device `c` owes its partner's receive cell the slot's credit and its partner's barrier cell one unit — summed so that
    the entry signal peels the last summand. -/
def O₁ (c : Dev nD) : CellTallies nD τ sig Unit := tallyAt (recvCell (peer c)) () N
def O₀ (c : Dev nD) : CellTallies nD τ sig Unit := O₁ c + tallyAt (barCell (peer c)) () 1

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = recvCell (peer c) ∨ g = barCell (peer c) := by
  unfold O₀ O₁ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

omit [FloatOps F] in
/-- A wait on a staging semaphore or on the send cell (level 0) is below everything a device ever owes. -/
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

omit [FloatOps F] in
/-- At its barrier wait a device owes its partner's receive credit only: a receive cell, above its barrier cell. -/
theorem mayWait_bar (c : Dev nD) :
    (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

end Cert.Kernel.Pf

end
-- ==== Proof.BitsSlots.lean ====
/-
  The two slots of the scratch buffer, read and written.

  The scratch buffer is 2×1×512; slot `k` is the rectangle at offset `k` on the first axis.  The kernel stores and loads
  a slot through the whole buffer at that rectangle (as a 1×1×512 vector) and transfers between slots through the
  rectangle squeezed to 1×512.  Squeezing re-indexes in row-major order and back, so a transfer of slot 0 of one
  buffer into slot 1 of another, read as 1×1×512, gives what slot 0 read as 1×1×512.
-/
import proofs.«901094_g7700000000001095_dist_sum_ax0_xy_m1024_n512_v7x_xy2x2_bf16_1_alg».proof.Proof.BitsProto

noncomputable section

namespace Cert.Kernel.Pf

open Cert.Kernel Cert.Kernel.Gen
open Idealize.ShloMosaic
open Idealize.ShloMosaic.TcCoe
open Idealize.SL Idealize.SL.RA Idealize.SL.Sem

variable {F : FTy → Type} [FloatOps F]

/-! ## Regions -/

omit [FloatOps F] in
/-- A load of slot 0 through the whole buffer reads exactly the transfer source's elements; -/
theorem load0_sub : (sM : Memref sig .tc .vmem S2x1x512 .f32).view.setOn r0.toLoadRect.set ⊆ (src0 : Memref sig .tc .vmem S1x512 .f32).view.set := by
  rw [set_src0]; intro i hi
  obtain ⟨j, hj, rfl⟩ := Finset.mem_map.mp hi
  exact hj
omit [FloatOps F] in
/-- a load of slot 1 the transfer destination's; -/
theorem load1_sub : (sM : Memref sig .tc .vmem S2x1x512 .f32).view.setOn r1.toLoadRect.set ⊆ (dst1 : Memref sig .tc .vmem S1x512 .f32).view.set := by
  rw [set_dst1]; intro i hi
  obtain ⟨j, hj, rfl⟩ := Finset.mem_map.mp hi
  exact hj
omit [FloatOps F] in
/-- a store of slot 0 writes exactly the transfer source's elements. -/
theorem store0_sub : ((sM : Memref sig .tc .vmem S2x1x512 .f32).access r0).setOn Finset.univ ⊆ (src0 : Memref sig .tc .vmem S1x512 .f32).view.set := by
  rw [set_src0, View.setOn_univ]
  show ((View.whole cc0_scratch0).slice r0).set ⊆ r0.set
  rw [View.set_slice_whole]

/-! ## Values -/

omit [FloatOps F] in
/-- Slot 0 read back after a store of `w` into it is `w`. -/
theorem rd0_store (c : Dev nD) (f : Buf (Elt F) ((sM : Memref sig .tc .vmem S2x1x512 .f32).view.loc (c : Thread nD τ))) (w : Vec F S1x1x512 .f32) :
    rd0 c (((sM : Memref sig .tc .vmem S2x1x512 .f32).access r0).write (Elt F) f w Finset.univ) = w :=
  View.read_write_univ (v := (sM : Memref sig .tc .vmem S2x1x512 .f32).access r0) f w

omit [FloatOps F] in
/-- The transfer of slot 0 of `fs` into slot 1 of `fd`, through the squeezed views: slot 1 then reads what slot 0 of `fs` read. -/
theorem rd1_land (c p : Dev nD) (fd : Buf (Elt F) ((dst1 : Memref sig .tc .vmem S1x512 .f32).view.loc (c : Thread nD τ)))
    (fs : Buf (Elt F) ((src0 : Memref sig .tc .vmem S1x512 .f32).view.loc (p : Thread nD τ))) :
    rd1 c ((dst1 : Memref sig .tc .vmem S1x512 .f32).view.write (Elt F) fd ((src0 : Memref sig .tc .vmem S1x512 .f32).view.read (Elt F) fs) Finset.univ)
      = rd0 p fs := by
  show ((View.whole cc0_scratch0).slice r1).read (Elt F)
      ((((View.whole cc0_scratch0).slice r1).reshape S1x512 squeezes_S1x1x512_S1x512.numel_eq).write (Elt F) fd
        ((((View.whole cc0_scratch0).slice r0).reshape S1x512 squeezes_S1x1x512_S1x512.numel_eq).read (Elt F) fs) Finset.univ)
    = ((View.whole cc0_scratch0).slice r0).read (Elt F) fs
  rw [View.write_reshape_univ, View.read_write_univ]
  funext x
  rw [View.read_apply, View.read_apply]
  simp only [View.emb_reshape, Function.Embedding.trans_apply, Equiv.coe_toEmbedding, Equiv.apply_symm_apply]

end Cert.Kernel.Pf

end
-- ==== Proof.BitsBody.lean ====
/-
  One device's body, stepped from the protocol's invariant.

  In program order: the entry signal to the partner's barrier cell (handing over slot 1 of the scratch buffer); the load of
  the block of `x`, its column sums stored into slot 0; the wait on the own barrier cell (the partner's slot 1 arrives);
  the transfer of slot 0 into the partner's slot 1, lent the right half of slot 0; the wait on the receive cell (the own
  slot 1 comes back holding the partner's column sums); the loads of both slots — slot 0 through the left half, the
  transfer still pending —, their sum stored into the result block; the wait on the send cell (the right half comes back);
  the two own cells closed and the scratch buffer put together again.
-/
import proofs.«901094_g7700000000001095_dist_sum_ax0_xy_m1024_n512_v7x_xy2x2_bf16_1_alg».proof.Proof.BitsSlots

noncomputable section

namespace Cert.Kernel.Pf

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The scratch buffer cut into its slots and put together again -/

/-- The whole scratch buffer of device `c`. -/
def scrPts (c : Dev nD) (f : Buf (Elt F) ((c : Thread nD τ).loc cc0_scratch0)) : sProp 𝕄 :=
  ((c : Thread nD τ).loc cc0_scratch0) ↦{fullShare} f
/-- What of it lies in neither slot (nothing, but that is never needed). -/
def restPts (c : Dev nD) (f : Buf (Elt F) ((c : Thread nD τ).loc cc0_scratch0)) : sProp 𝕄 :=
  ((c : Thread nD τ).loc cc0_scratch0)
    ↦[(Finset.univ \ (dst1 : Memref sig .tc .vmem S1x512 .f32).view.set) \ (src0 : Memref sig .tc .vmem S1x512 .f32).view.set]{fullShare} f

omit [FloatOps F] in
theorem src0_sub : (src0 : Memref sig .tc .vmem S1x512 .f32).view.set ⊆ Finset.univ \ (dst1 : Memref sig .tc .vmem S1x512 .f32).view.set :=
  Finset.subset_sdiff.mpr ⟨Finset.subset_univ _, slots_disjoint⟩

omit [FloatOps F] in
theorem scr_split (c : Dev nD) (f : Buf (Elt F) ((c : Thread nD τ).loc cc0_scratch0)) :
    scrPts c f ⊢ (iprop(slot1Pts c f ∗ slot0Pts c fullShare f ∗ restPts c f) : sProp 𝕄) := by
  unfold scrPts slot1Pts slot0Pts restPts
  exact (pointsTo_split_subset (Finset.subset_univ _)).1.trans (sep_mono_right (pointsTo_split_subset src0_sub).1)

omit [FloatOps F] in
theorem scr_join (c : Dev nD) (f1 f0 fr : Buf (Elt F) ((c : Thread nD τ).loc cc0_scratch0)) :
    iprop(slot1Pts c f1 ∗ slot0Pts c fullShare f0 ∗ restPts c fr) ⊢ (iprop(∃ f, scrPts c f) : sProp 𝕄) := by
  unfold scrPts slot1Pts slot0Pts restPts
  refine (sep_mono_right (pointsTo_join_subset src0_sub)).trans ?_
  refine (pointsTo_join_subset (Finset.subset_univ _)).trans ?_
  iintro H; iexists _; iexact H

omit [FloatOps F] in
/-- Slot 0 halved, and the halves — held at contents that then must agree — put together. -/
theorem slot0_halve (c : Dev nD) (f : Buf (Elt F) ((src0 : Memref sig .tc .vmem S1x512 .f32).view.loc (c : Thread nD τ))) :
    slot0Pts c fullShare f ⊢ (iprop(slot0Pts c fullShare.left f ∗ slot0Pts c fullShare.right f) : sProp 𝕄) := by
  unfold slot0Pts; exact (pointsTo_share (PosShare.mem_left_op_right fullShare)).1

omit [FloatOps F] in
theorem slot0_rejoin (c : Dev nD) (f g : Buf (Elt F) ((src0 : Memref sig .tc .vmem S1x512 .f32).view.loc (c : Thread nD τ))) :
    iprop(slot0Pts c fullShare.left f ∗ slot0Pts c fullShare.right g) ⊢ (slot0Pts c fullShare f : sProp 𝕄) := by
  unfold slot0Pts
  iintro H
  ihave H' := (persistent_entails_right pointsTo_agree) $$ H
  icases H' with ⟨%h, HL, HR⟩
  have e : ∀ i ∈ (src0 : Memref sig .tc .vmem S1x512 .f32).view.set, g i = f i :=
    fun i hi => ((h i (Finset.mem_inter.mpr ⟨hi, hi⟩)).1).symm
  ihave HR' := (Entails.of_eq (pointsTo_congr e)) $$ HR
  iapply (pointsTo_share (PosShare.mem_left_op_right fullShare)).2
  isplitl [HL] <;> iassumption

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The kernel's result on device `c`: its own column sums plus its partner's. -/
def outAt (c : Dev nD) : (cc0_stg1_0 : Ref sig .tc).ty.Contents (Elt F) := outVal (xstg m ρ c) (xstg m ρ (peer c))

/-- The cells' invariants device `c`'s body opens, under the names `K` the launch allocated them at: its own three, its
    partner's barrier cell (its signal) and its partner's receive cell (its transfer). -/
def invs (K : Dev nD × Fin 3 → ℕ) (c : Dev nD) : sProp 𝕄 :=
  iprop(cellInv ER (sched m ρ) (K (c, 0)) (barCell c) ∗ cellInv ER (sched m ρ) (K (c, 1)) (sendCell c) ∗ cellInv ER (sched m ρ) (K (c, 2)) (recvCell c)
    ∗ cellInv ER (sched m ρ) (K (peer c, 0)) (barCell (peer c)) ∗ cellInv ER (sched m ρ) (K (peer c, 2)) (recvCell (peer c)))

instance invs_persistent (K : Dev nD × Fin 3 → ℕ) (c : Dev nD) : BI.Persistent (invs m ρ K c) := by unfold invs; infer_instance

/-- The protocol's ghost state device `c` starts from: the invariants; its positions at round 0 of its three cells; the
    reached-marks of the cells it pays and of its own send and receive cells; the three duty tokens it pays with — its
    partner's barrier duty, its partner's receive duty, its own send duty. -/
def ghost (K : Dev nD × Fin 3 → ℕ) (c : Dev nD) : sProp 𝕄 :=
  iprop(invs m ρ K c
    ∗ atPos ER (barCell c) 0 ∅ 0 ∗ atPos ER (sendCell c) 0 ∅ 0 ∗ atPos ER (recvCell c) 0 ∅ 0
    ∗ reached ER (barCell (peer c)) 0 ∗ reached ER (recvCell (peer c)) 0 ∗ reached ER (sendCell c) 0 ∗ reached ER (recvCell c) 0
    ∗ dutyTok ER (barCell (peer c)) 0 false ∗ dutyTok ER (recvCell (peer c)) 0 false ∗ dutyTok ER (sendCell c) 0 false)

/-- What device `c`'s body starts from: that at some names, its two credit tokens (its barrier's unit, its receive
    cell's credit) and the level facts. -/
def start (c : Dev nD) : sProp 𝕄 :=
  iprop((∃ K, ghost m ρ K c) ∗ cred (tallyAt (barCell c) () 1) ∗ cred (tallyAt (recvCell c) () N) ∗ levAts L lv)

def Φ₀ (c : Dev nD) : sProp 𝕄 := iprop(start m ρ c ∗ ∃ f, scrPts c f)
/-- After the point: the scratch buffer whole again, the two own cells at zero, closed. -/
def Φ₁ (c : Dev nD) : sProp 𝕄 := iprop((∃ f, scrPts c f) ∗ semVal (sendCell c) 0 ∗ semVal (recvCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

section Body

variable (K : Dev nD × Fin 3 → ℕ)

omit [FloatOps F] in
theorem hz : (![0, 0] : Fin 2 → Nat) = fun _ => 0 := funext fun a => by fin_cases a <;> rfl
omit [FloatOps F] in
theorem read_x (f : (cc0_stg0_0 : Ref sig .tc).ty.Contents (Elt F)) : (xM : Memref sig .tc .vmem S1024x512 .f32).view.readAt (Elt F) rx.toLoadRect f = f :=
  Memref.readAt_unit_zero (Elt F) cc0_stg0_0 hz _ f
omit [FloatOps F] in
theorem write_out (f w : (cc0_stg1_0 : Ref sig .tc).ty.Contents (Elt F)) :
    ((oM : Memref sig .tc .vmem S1x512 .f32).access ro : View sig .tc _ _ _).write (Elt F) f w Finset.univ = w :=
  Memref.write_access_unit_zero_univ (Elt F) cc0_stg1_0 hz _ f w

/-- The transfer, stated over this protocol's cells: slot 0 (its right half lent, holding the own column sums) into the
    partner's slot 1. -/
theorem wp_send_pair (c n : Dev nD) (hn : n = peer c) {hsc : (dst1 : Memref sig (Dev.tc n : Thread nD τ).2.kind .vmem S1x512 .f32).view.ref.isScScratch = false}
    {hsrc : (src0 : Memref sig .tc .vmem S1x512 .f32).view.WordExact} {hdst : (dst1 : Memref sig .tc .vmem S1x512 .f32).view.WordExact}
    {hsem : DmaTarget.Typed .vmem (.dma recvS.sem) (.remote (Dev.tc n : Thread nD τ) (dst1 : Memref sig .tc .vmem S1x512 .f32) (.dma sendS.sem) hsc)}
    {α : Type} {Q : α → sProp 𝕄} {k : PUnit → Prog (TpuEff nD τ sig (Elt F) Λ₀ .tc) α}
    (fs : Buf (Elt F) ((src0 : Memref sig .tc .vmem S1x512 .f32).view.loc (c : Thread nD τ)))
    (fn : Buf (Elt F) ((dst1 : Memref sig .tc .vmem S1x512 .f32).view.loc (peer c : Thread nD τ)))
    (hfs : rd0 c fs = colSum (xstg m ρ c)) (W : Waits sig Unit) :
    iprop(cellInv ER (sched m ρ) (K (c, 1)) (sendCell c) ∗ cellInv ER (sched m ρ) (K (peer c, 2)) (recvCell (peer c))
        ∗ slot0Pts c fullShare.right fs ∗ slot1Pts (peer c) fn
        ∗ owes (c : Thread nD τ) (tallyAt (recvCell (peer c)) () N) W
        ∗ dutyTok ER (sendCell c) 0 false ∗ reached ER (sendCell c) 0
        ∗ dutyTok ER (recvCell (peer c)) 0 false ∗ reached ER (recvCell (peer c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src0 (.remote (Dev.tc n : Thread nD τ) dst1 (.dma sendS.sem) hsc) (.dma recvS.sem) hsrc hdst hsem) k) Q) := by
  subst hn
  unfold slot0Pts slot1Pts
  exact Rounds.wp_send_pointsTo 𝒱₀ ER (sched m ρ) (c : Thread nD τ) none (κ₁ := K (c, 1)) (κ₂ := K (peer c, 2))
    (r₁ := 0) (r₂ := 0) (d₁ := false) (d₂ := false) (fd := fn)
    (by rw [duties_send]; exact Finset.mem_singleton_self _) (by rw [duties_recv]; exact Finset.mem_singleton_self _)
    () () N rfl (amount_send m ρ c false) (amount_recv m ρ (peer c) false) 0 (by rw [zero_add]) (W := W)
    (by rw [payload_send]; unfold sendPay slot0Pts; iintro H; iexists fs; iexact H)
    (by
      rw [payload_recv]; unfold recvPay slot1Pts
      iintro H
      iexists ((dst1 : Memref sig .tc .vmem S1x512 .f32).view.write (Elt F) fn ((src0 : Memref sig .tc .vmem S1x512 .f32).view.read (Elt F) fs) Finset.univ)
      isplitr
      · ipureintro; rw [rd1_land (peer c) c fn fs, hfs, peer_peer]
      · iexact H)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m ρ K c ∗ cred (tallyAt (barCell c) () 1) ∗ cred (tallyAt (recvCell c) () N) ∗ levAts L lv ∗ ∃ f, scrPts c f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (outAt m ρ c))

/-- A load of slot 0 of the scratch buffer, through any share of it; -/
theorem wp_load_slot0 (c : Dev nD) (q : PosShare TreeShare) (f : Buf (Elt F) ((src0 : Memref sig .tc .vmem S1x512 .f32).view.loc (c : Thread nD τ)))
    {hl : (sM : Memref sig .tc .vmem S2x1x512 .f32).view.LoadsAt r0.toLoadRect} {α : Type} {Q : α → sProp 𝕄}
    {k : (r0.toLoadRect.shape.Idx → Elt F .f32) → Prog (TpuEff nD τ sig (Elt F) Λ₀ .tc) α} :
    slot0Pts c q f ⊢ iprop((slot0Pts c q f -∗ wp frame (wpE (defs₀ (F := F)) 𝒱₀ (c : Thread nD τ) none) Set.univ (k (rd0 c f)) Q)
        -∗ wp frame (wpE (defs₀ (F := F)) 𝒱₀ (c : Thread nD τ) none) Set.univ (.op (.load sM r0.toLoadRect hl) k) Q) := by
  unfold slot0Pts
  exact wp_load 𝒱₀ (c : Thread nD τ) none Set.univ (m := sM) load0_sub
/-- a store of `w` into it; -/
theorem wp_store_slot0 (c : Dev nD) (f : Buf (Elt F) ((src0 : Memref sig .tc .vmem S1x512 .f32).view.loc (c : Thread nD τ)))
    (w : r0.shape.Idx → Elt F .f32)
    {hx : ((sM : Memref sig .tc .vmem S2x1x512 .f32).access r0).Stores Finset.univ} {hm : (Finset.univ : Finset r0.shape.Idx) = Finset.univ ∨ ∀ a, r0.stride a = 1}
    {α : Type} {Q : α → sProp 𝕄} {k : PUnit → Prog (TpuEff nD τ sig (Elt F) Λ₀ .tc) α} :
    slot0Pts c fullShare f
      ⊢ iprop((slot0Pts c fullShare (((sM : Memref sig .tc .vmem S2x1x512 .f32).access r0).write (Elt F) f w Finset.univ)
            -∗ wp frame (wpE (defs₀ (F := F)) 𝒱₀ (c : Thread nD τ) none) Set.univ (k ⟨⟩) Q)
        -∗ wp frame (wpE (defs₀ (F := F)) 𝒱₀ (c : Thread nD τ) none) Set.univ (.op (.store sM r0 w Finset.univ hx hm) k) Q) := by
  unfold slot0Pts
  exact wp_store 𝒱₀ (c : Thread nD τ) none Set.univ (m := sM) (r := r0) (Mk := Finset.univ) store0_sub
/-- a load of slot 1. -/
theorem wp_load_slot1 (c : Dev nD) (f : Buf (Elt F) ((dst1 : Memref sig .tc .vmem S1x512 .f32).view.loc (c : Thread nD τ)))
    {hl : (sM : Memref sig .tc .vmem S2x1x512 .f32).view.LoadsAt r1.toLoadRect} {α : Type} {Q : α → sProp 𝕄}
    {k : (r1.toLoadRect.shape.Idx → Elt F .f32) → Prog (TpuEff nD τ sig (Elt F) Λ₀ .tc) α} :
    slot1Pts c f ⊢ iprop((slot1Pts c f -∗ wp frame (wpE (defs₀ (F := F)) 𝒱₀ (c : Thread nD τ) none) Set.univ (k (rd1 c f)) Q)
        -∗ wp frame (wpE (defs₀ (F := F)) 𝒱₀ (c : Thread nD τ) none) Set.univ (.op (.load sM r1.toLoadRect hl) k) Q) := by
  unfold slot1Pts
  exact wp_load 𝒱₀ (c : Thread nD τ) none Set.univ (m := sM) load1_sub

set_option maxHeartbeats 1600000 in
/-- The body, stepped from `bodyPre` in program order to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold bodyPre ghost invs
  iintro ⟨⟨⟨⟨⟨#HIbar, #HIsnd, #HIrcv, #HIbarP, #HIrcvP⟩, HatB, HatS, HatV, #HrBP, #HrVP, #HrS, #HrV, HtBP, HtVP, HtS⟩, HcB, HcV, #Hlev, ⟨%f0, Hscr⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  simp only [dev1_eq c]
  -- the scratch buffer cut into slot 1, slot 0 and what is left
  ihave Hs := (scr_split c f0) $$ Hscr
  icases Hs with ⟨Hs1, Hs0, Hrest⟩
  -- the entry signal to the partner's barrier cell: slot 1 goes with it, and that this device stands at round 0 of its receive cell
  iapply (Rounds.wp_signal 𝒱₀ ER (sched m ρ) (c : Thread nD τ) none (dst := (peer c : Thread nD τ)) (κ := K (peer c, 0))
      (d := false) (by rw [duties_bar]; exact Finset.mem_singleton_self _) ((amount_bar m ρ (peer c) false).trans (by decide)) () (O₁ c) rfl)
    $$ [HO HtBP Hs1]
  · isplitr; · iexact HIbarP
    isplitl [HO]; · iexact HO
    isplitl [HtBP]; · iexact HtBP
    isplitl [Hs1]
    · rw [payload_bar]; unfold barPay; rw [peer_peer]
      isplitl [Hs1]; · iexists f0; iexact Hs1
      iexact HrV
    · iexact HrBP
  iintro HO
  unfold O₁
  -- the block of x; its column sums into slot 0
  iapply (wp_load 𝒱₀ (c : Thread nD τ) none Set.univ (m := xM) (Finset.subset_univ _)) $$ Hx; iintro Hx
  rw [read_x]
  iapply (wp_load_slot0 c fullShare f0) $$ Hs0; iintro Hs0
  iapply (wp_store_slot0 c f0 (k0_pay2 (xstg m ρ c))) $$ Hs0; iintro Hs0
  -- the wait on the own barrier cell, still owing the partner's receive credit: the partner's slot 1 arrives
  iapply (Rounds.wp_wait_rest_token 𝒱₀ ER (sched m ρ) (c : Thread nD τ) none (κ := K (c, 0))
      (wpE_semWait_eq 𝒱₀ (c : Thread nD τ) none Set.univ) (Set.mem_univ _) () (O := tallyAt (recvCell (peer c)) () N) (W := W) (R := 0) (m := 0) (T := ∅)
      (by rw [expect_bar]; decide)) $$ [HcB HO HatB]
  · isplitr; · iexact HIbar
    isplitl [HcB]; · iexact HcB
    isplitl [HO]; · iexact HO
    isplitr; · iapply (mayWait_bar c); iexact Hlev
    iexact HatB
  iintro ⟨HO, HatB, -, Hpay⟩
  ihave Hp := (Entails.of_eq (rest_bar m ρ c)) $$ Hpay
  unfold barPay
  icases Hp with ⟨⟨%fn, Hs1P⟩, #HrVP'⟩
  -- slot 0 halved: the right half is lent to the transfer, the left half stays for the load
  ihave Hh := (slot0_halve c _) $$ Hs0
  icases Hh with ⟨Hs0L, Hs0R⟩
  -- the transfer of slot 0 into the partner's slot 1
  iapply (wp_send_pair m ρ K c _ (dev2_eq c) _ fn (rd0_store c f0 (k0_pay2 (xstg m ρ c))) (insert (SemLoc.reg barS, ()) W)) $$ [Hs0R Hs1P HO HtS HtVP]
  · isplitr; · iexact HIsnd
    isplitr; · iexact HIrcvP
    isplitl [Hs0R]; · iexact Hs0R
    isplitl [Hs1P]; · iexact Hs1P
    isplitl [HO]; · iexact HO
    isplitl [HtS]; · iexact HtS
    isplitr; · iexact HrS
    isplitl [HtVP]; · iexact HtVP
    iexact HrVP
  iintro ⟨HcS, HO⟩
  -- the wait on the receive cell: the own slot 1 comes back holding the partner's column sums
  iapply (Rounds.wp_wait_rest_token 𝒱₀ ER (sched m ρ) (c : Thread nD τ) none (κ := K (c, 2))
      (wpE_waitDma2_eq 𝒱₀ (c : Thread nD τ) none Set.univ) (Set.mem_univ _) () (O := 0) (W := insert (SemLoc.reg barS, ()) W) (R := 0) (m := 0) (T := ∅)
      (by rw [Nat.zero_add, expect_recv] <;> rfl)) $$ [HcV HO HatV]
  · isplitr; · iexact HIrcv
    isplitl [HcV]; · iexact HcV
    isplitl [HO]; · iexact HO
    isplitr; · rw [MayWait_zero]; iempintro
    iexact HatV
  iintro ⟨HO, HatV, -, Hpay⟩
  ihave Hp := (Entails.of_eq (rest_recv m ρ c)) $$ Hpay
  unfold recvPay
  icases Hp with ⟨%f1, %hf1, Hs1⟩
  -- both slots loaded (slot 0 through the half kept), their sum stored into the result block
  iapply (wp_load_slot0 c fullShare.left _) $$ Hs0L; iintro Hs0L
  iapply (wp_load_slot1 c f1) $$ Hs1; iintro Hs1
  iapply (wp_load 𝒱₀ (c : Thread nD τ) none Set.univ (m := oM) (Finset.subset_univ _)) $$ Hout; iintro Hout
  iapply (wp_store 𝒱₀ (c : Thread nD τ) none Set.univ (m := oM) (r := ro) (Mk := Finset.univ) (Finset.subset_univ _)) $$ Hout; iintro Hout
  rw [write_out]
  have e0 : rd0 c (((sM : Memref sig .tc .vmem S2x1x512 .f32).access r0).write (Elt F) f0 (k0_pay2 (xstg m ρ c)) Finset.univ) = colSum (xstg m ρ c) :=
    rd0_store c f0 _
  rw [e0, hf1]
  -- the wait on the send cell: the lent half of slot 0 comes back
  iapply (Rounds.wp_wait_rest_token 𝒱₀ ER (sched m ρ) (c : Thread nD τ) none (κ := K (c, 1))
      (wpE_waitDma2_eq 𝒱₀ (c : Thread nD τ) none Set.univ) (Set.mem_univ _) () (O := 0)
      (W := insert (SemLoc.dma recvS.sem, ()) (insert (SemLoc.reg barS, ()) W)) (R := 0) (m := 0) (T := ∅)
      (by rw [Nat.zero_add, expect_send] <;> rfl)) $$ [HcS HO HatS]
  · isplitr; · iexact HIsnd
    isplitl [HcS]; · iexact HcS
    isplitl [HO]; · iexact HO
    isplitr; · rw [MayWait_zero]; iempintro
    iexact HatS
  iintro ⟨HO, HatS, -, Hpay⟩
  ihave Hp := (Entails.of_eq (rest_send m ρ c)) $$ Hpay
  unfold sendPay
  icases Hp with ⟨%g0, Hs0R⟩
  -- the halves of slot 0 put together; the two own cells close; the scratch buffer whole again
  ihave Hs0 := (slot0_rejoin c _ g0) $$ [Hs0L Hs0R]
  · isplitl [Hs0L] <;> iassumption
  imod (Rounds.cell_close ER (sched m ρ) (Set.mem_univ (K (c, 1))) (fun h => h) (R := 0 + 1) (duties_later m ρ (sendCell c))) $$ [HatS] with HzS
  · isplitr; · iexact HIsnd
    iexact HatS
  imod (Rounds.cell_close ER (sched m ρ) (Set.mem_univ (K (c, 2))) (fun h => h) (R := 0 + 1) (duties_later m ρ (recvCell c))) $$ [HatV] with HzV
  · isplitr; · iexact HIrcv
    iexact HatV
  ihave Hscr := (scr_join c _ _ _) $$ [Hs1 Hs0 Hrest]
  · isplitl [Hs1]; · iexact Hs1
    isplitl [Hs0] <;> iassumption
  rw [wp_ret]; imodintro
  iapply Hk
  unfold bodyPost Φ₁ Dat.owesAt Pipeline.owesWithin
  rw [show (dats m ρ 0 c).owed t₀.succ = 0 from rfl]
  isplitl [Hscr HzS HzV]
  · isplitl [Hscr]; · iexact Hscr
    isplitl [HzS]; · iexact HzS
    iexact HzV
  isplitl [HO]
  · iexists (insert (SemLoc.dma sendS.sem, ()) (insert (SemLoc.dma recvS.sem, ()) (insert (SemLoc.reg barS, ()) W)))
    isplitr; · ipureintro; exact fun _ _ => Or.inl trivial
    iexact HO
  isplitl [Hx]
  · iexists _; isplitr; · (ipureintro; rfl)
    iexact Hx
  iexists _; isplitr; · (ipureintro; rfl)
  iexact Hout

end Body

end Cert.Kernel.Pf

end
-- ==== Proof.BitsLaunch.lean ====
/-
  The launch: every device's body obligation made into the run of @main on the whole mesh.

  The protocol's ghost state is allocated for all devices at once — the barrier semaphore is the runtime's, not scoped to
  the launch, so its counter at zero arrives among the launch's unscoped semaphores —: each device's three cells get their
  round state, positions and duty tokens; every cell's invariant is allocated; the tokens are dealt to the devices that
  PAY the duties (a barrier's and a receive cell's token to the partner, a send cell's to the device itself).  The credit a
  device starts with on a cell is the sum of what all devices owe it: one unit on its barrier cell and the slot's credit
  on its receive cell, both owed by its partner.  The run's post reads every device's result array off the pipeline's
  final arrays: the result window is the whole array, written back once with what the body left in its staging buffer.
-/
import proofs.«901094_g7700000000001095_dist_sum_ax0_xy_m1024_n512_v7x_xy2x2_bf16_1_alg».proof.Proof.BitsBody

noncomputable section

namespace Cert.Kernel.Pf

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body obligation -/

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx] <;> iassumption
  · iintro H; iexact H

/-! ## The ghost state at launch -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def protoCells : Finset (GSem nD τ sig) := Finset.univ.map ⟨kcell, kcell_injective⟩

/-- A device's own cells' duty tokens as minted: one per cell. -/
abbrev tokOf (ck : Dev nD × Fin 3) : GSem nD τ sig × ℕ × Bool := (kcell ck, 0, false)
theorem tokOf_injective : Function.Injective (tokOf : Dev nD × Fin 3 → GSem nD τ sig × ℕ × Bool) :=
  fun a b h => kcell_injective (congrArg Prod.fst h)
def protoToks : Finset (GSem nD τ sig × ℕ × Bool) := Finset.univ.map ⟨tokOf, tokOf_injective⟩

def u₀ : UU :=
  (initOf (Pipeline.cells cfgs cellOf_inj) (Pipeline.launchToks cfgs cellOf_inj), initOf protoCells protoToks)

/-- The duty tokens of device `c`'s own cells. -/
def toks (c : Dev nD) : sProp 𝕄 :=
  iprop(dutyTok ER (barCell c) 0 false ∗ dutyTok ER (sendCell c) 0 false ∗ dutyTok ER (recvCell c) 0 false)

/-- What the launch element deals device `c`. -/
def G (c : Dev nD) : sProp 𝕄 :=
  iprop((bigSep Finset.univ fun k : Fin 3 => roundState ER (sched m ρ) (kcell (c, k)) 0)
    ∗ (bigSep Finset.univ fun k : Fin 3 => iprop(atPos ER (kcell (c, k)) 0 ∅ 0 ∗ reached ER (kcell (c, k)) 0)) ∗ toks c)

/-- What the global step makes of it. -/
def G' (c : Dev nD) : sProp 𝕄 := iprop(∃ K, ghost m ρ K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

theorem fund_proto : BI.own (ER (initOf protoCells protoToks)) ⊢ (|==> bigSep Finset.univ (G m ρ) : sProp 𝕄) := by
  have hX (Φ : GSem nD τ sig → sProp 𝕄) : bigSep protoCells Φ = bigSep Finset.univ fun c : Dev nD => bigSep Finset.univ fun k : Fin 3 => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by unfold toks; rw [bigSep_fin3]; rfl
  iintro HX
  imod (Rounds.fund ER (sched m ρ) protoCells protoToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 3 → ℕ) : sProp 𝕄 :=
  iprop((bigSep Finset.univ fun ck : Dev nD × Fin 3 => cellInv ER (sched m ρ) (K ck) (kcell ck))
    ∗ bigSep Finset.univ fun ck : Dev nD × Fin 3 => reached ER (kcell ck) 0)

instance records_persistent (K : Dev nD × Fin 3 → ℕ) : BI.Persistent (records m ρ K) := by unfold records; infer_instance

theorem inv_at (K : Dev nD × Fin 3 → ℕ) (ck : Dev nD × Fin 3) :
    (bigSep Finset.univ fun ck : Dev nD × Fin 3 => (cellInv ER (sched m ρ) (K ck) (kcell ck) : sProp 𝕄)) ⊢ cellInv ER (sched m ρ) (K ck) (kcell ck) :=
  bigSep_elim (Finset.mem_univ ck)
omit [FloatOps F] in
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device `c`: its positions, and the tokens of the duties IT pays. -/
def payToks (c : Dev nD) : sProp 𝕄 :=
  iprop(dutyTok ER (barCell (peer c)) 0 false ∗ dutyTok ER (recvCell (peer c)) 0 false ∗ dutyTok ER (sendCell c) 0 false)
def linear (c : Dev nD) : sProp 𝕄 :=
  iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m ρ K ∗ linear c) ⊢ G' m ρ c := by
  unfold records linear payToks G' ghost invs
  iintro ⟨⟨#HI, #HR⟩, ⟨HaB, HaS, HaV⟩, HtBP, HtVP, HtS⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (peer c, 0)); iexact HI
    iapply (inv_at m ρ K (peer c, 2)); iexact HI
  isplitl [HaB]; · iexact HaB
  isplitl [HaS]; · iexact HaS
  isplitl [HaV]; · iexact HaV
  isplitr; · iapply (reached_at (F := F) (peer c, 0)); iexact HR
  isplitr; · iapply (reached_at (F := F) (peer c, 2)); iexact HR
  isplitr; · iapply (reached_at (F := F) (c, 1)); iexact HR
  isplitr; · iapply (reached_at (F := F) (c, 2)); iexact HR
  isplitl [HtBP]; · iexact HtBP
  isplitl [HtVP]; · iexact HtVP
  iexact HtS

omit [FloatOps F] in
/-- The tokens dealt across the pairing: a barrier's and a receive cell's token go to the partner, a send cell's stays. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv pairing (fun c : Dev nD => (dutyTok ER (barCell c) 0 false : sProp 𝕄)),
    bigSep_univ_equiv pairing (fun c : Dev nD => (dutyTok ER (recvCell c) 0 false : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 3 => iprop(∃ κ : ℕ, cellInv ER (sched m ρ) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (sched m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff {a b : Dev nD} : Iff (recvCell a = recvCell b) (a = b) :=
  ⟨fun h => Fin.ext (congrArg (fun g : GSem nD τ sig => g.1.1.val) h), fun h => h ▸ rfl⟩

omit [FloatOps F] in
/-- What device `d` owes device `c`'s barrier cell: a unit if `d` is `c`'s partner. -/
theorem owed_bar (d c : Dev nD) : O₀ d (barCell c) () = if d = peer c then 1 else 0 := by
  unfold O₀ O₁
  rw [Pi.add_apply, Finsupp.add_apply, tallyAt_ne_cell (fun h => recv_ne_bar (congrArg Prod.snd h).symm), tallyAt_apply, Finsupp.zero_apply, Nat.zero_add]
  by_cases h : d = peer c
  · subst h; rw [peer_peer, if_pos ⟨rfl, rfl⟩, if_pos rfl]
  · rw [if_neg (fun ⟨h1, _⟩ => h (by rw [← peer_peer d]; exact congrArg peer (bar_eq_iff.mp h1).symm)), if_neg h]

omit [FloatOps F] in
theorem owed_recv (d c : Dev nD) : O₀ d (recvCell c) () = if d = peer c then N else 0 := by
  unfold O₀ O₁
  rw [Pi.add_apply, Finsupp.add_apply, tallyAt_apply, tallyAt_ne_cell (fun h => recv_ne_bar (congrArg Prod.snd h)), Finsupp.zero_apply, Nat.add_zero]
  by_cases h : d = peer c
  · subst h; rw [peer_peer, if_pos ⟨rfl, rfl⟩, if_pos rfl]
  · rw [if_neg (fun ⟨h1, _⟩ => h (by rw [← peer_peer d]; exact congrArg peer (recv_eq_iff.mp h1).symm)), if_neg h]

omit [FloatOps F] in
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

omit [FloatOps F] in
theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c, Finset.sum_ite_eq' Finset.univ (peer c) fun _ => N,
    if_pos (Finset.mem_univ _)]

omit [FloatOps F] in
theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; unfold scrPts; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁
  iintro ⟨⟨%f, Hr⟩, HzS, HzV⟩
  isplitr; · iempintro
  isplitl [HzS HzV]
  · isplitl [HzS] <;> iassumption
  iexists f; unfold scrPts; iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of four devices, for any float values, from any memory with zero counters: every weakly fair
    execution of @main terminates, and every final state has each windowed array at the pipeline's final contents. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_proto m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-! ## The final arrays -/

/-- The argument array is an input: after the run it holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array's one block — the whole array — read back is what the body left in the staging buffer. -/
theorem finalA_o (c : Dev nD) :
    (win0_1.blk (0 : Fin 1)).view.read (Elt F) (finalA m ρ c (1 : Fin 2)) = outAt m ρ c := by
  unfold finalA
  rw [show cfg0.N = ((0 : Fin 1) : Fin cfg0.N).val + 1 from rfl, (dats m ρ 0 c).arrAt_succ (1 : Fin 2) (0 : Fin 1)]
  rw [show (cfg0.win (1 : Fin 2)).flush (0 : Fin 1) = true from by decide, if_pos rfl]
  exact View.read_write_univ _ _

/-- The run with every device's result named: its own column sums plus its partner's, of the argument blocks as launched. -/
theorem run_post : θ_run defs (onTc (τ := τ) (main (F := F))) ⟨m, fun _ => 0, ρ⟩ (RunPost m) := by
  refine (θ_run defs _ _).mono (fun r h c => ⟨(h c (1 : Fin 2)).trans ?_, (h c (0 : Fin 2)).trans (finalA_x m ρ c)⟩) (run_main (F := F) m ρ)
  -- the result window's one block is the whole 1×512 array at block index 0: reading it reads the array
  have hzo : (fun a => (win0_1.index (0 : Fin 1)) a * main_v1.ty.shape.size a) = fun _ => 0 :=
    funext fun a => by fin_cases a <;> decide
  have hro := fun f => Memref.read_access_unit_zero (Elt F) main_v1 hzo (fun a => by fin_cases a <;> decide) f
  -- and the argument window's one block is the whole 1024×512 block, on this device and on its partner
  have hzx : (fun a => (win0_0.index (0 : Fin 1)) a * main_arg0.ty.shape.size a) = fun _ => 0 :=
    funext fun a => by fin_cases a <;> decide
  have hrx := fun f => Memref.read_access_unit_zero (Elt F) main_arg0 hzx (fun a => by fin_cases a <;> decide) f
  have ho := finalA_o (F := F) m ρ c
  unfold outAt xstg s₀ at ho
  rw [hro, hrx, hrx] at ho
  exact ho

/-- info: 'Cert.Kernel.Pf.run_post' depends on axioms: [propext, Classical.choice, Quot.sound] -/
#guard_msgs in #print axioms run_post

end Cert.Kernel.Pf

end
-- ==== Proof.Value.lean ====
/-
  The value half: the reference's run, and that a device's result row is its block of the reference's result.

  The whole input has 2048 rows and 1024 columns. Device c of the 2×2 mesh holds rows 1024·(c / 2) … and columns
  512·(c % 2) …; its partner holds the other 1024 rows of the same columns. The kernel's result on device c, at
  column q of its 512, is the sum down column q of its own block plus the sum down column q of its partner's block.
  The reference's result at column 512·(c % 2) + q is zero plus the sum down that column over all 2048 rows. The two
  agree because a sum over 2048 rows is the sum over the first 1024 plus the sum over the last 1024, and addition on
  the extended reals is commutative, so it does not matter which half is the device's own.
-/
import proofs.«901094_g7700000000001095_dist_sum_ax0_xy_m1024_n512_v7x_xy2x2_bf16_1_alg».proof.Defs
import proofs.«901094_g7700000000001095_dist_sum_ax0_xy_m1024_n512_v7x_xy2x2_bf16_1_alg».proof.Proof.Spec
import proofs.«901094_g7700000000001095_dist_sum_ax0_xy_m1024_n512_v7x_xy2x2_bf16_1_alg».proof.Proof.Gen.ReferenceIdeal
import proofs.«901094_g7700000000001095_dist_sum_ax0_xy_m1024_n512_v7x_xy2x2_bf16_1_alg».proof.Proof.Gen.ReferenceIdeal.Run
import proofs.«901094_g7700000000001095_dist_sum_ax0_xy_m1024_n512_v7x_xy2x2_bf16_1_alg».proof.Proof.Gen.ReferenceIdeal.Read
import proofs.«901094_g7700000000001095_dist_sum_ax0_xy_m1024_n512_v7x_xy2x2_bf16_1_alg».proof.Proof.Gen.KernelIdeal
import proofs.«901094_g7700000000001095_dist_sum_ax0_xy_m1024_n512_v7x_xy2x2_bf16_1_alg».proof.Proof.Gen.Pre_finite_inputs_Kernel
import proofs.«901094_g7700000000001095_dist_sum_ax0_xy_m1024_n512_v7x_xy2x2_bf16_1_alg».proof.Proof.Gen.Pre_finite_inputs_ReferenceIdeal
import Idealize.ShloMosaic.Lib.Layout
import Idealize.ShloMosaic.Lib.ValueIdx
import Idealize.ShloMosaic.Lib.Pipeline.Value
import Idealize.ShloMosaic.PureOps.Ideal.Laws
import Idealize.ShloMosaic.Lib.ValueLayout
import Mathlib.Algebra.BigOperators.Fin
import Mathlib.Data.EReal.Basic

noncomputable section

namespace Cert.KernelIdeal.Val

open Cert.KernelIdeal Cert.KernelIdeal.Gen Cert.KernelIdeal.Pf
open Idealize.ShloMosaic Idealize.SL.Sem
open Idealize.ShloMosaic.ValueIdx Idealize.ShloMosaic.Layout
open scoped BigOperators

/-- A sum over 2048 rows is the sum over the first 1024 rows plus the sum over the last 1024. -/
theorem sum_rows_split (g : Fin 2048 → EReal) :
    ∑ r : Fin 2048, g r = (∑ k : Fin 1024, g ⟨k.val, by omega⟩) + ∑ k : Fin 1024, g ⟨1024 + k.val, by omega⟩ :=
  Fin.sum_univ_add (a := 1024) (b := 1024) g

/-- The two halves of the rows, named by which is which (a and b are 0 and 1 in some order), sum to the whole:
    in one order this is the split above, in the other the split and commutativity. -/
theorem sum_halves (g : Fin 2048 → EReal) (a b : Nat) (hab : a + b = 1) :
    (∑ k : Fin 1024, g ⟨a * 1024 + k.val, by omega⟩) + (∑ k : Fin 1024, g ⟨b * 1024 + k.val, by omega⟩)
      = ∑ r : Fin 2048, g r := by
  obtain ⟨rfl, rfl⟩ | ⟨rfl, rfl⟩ : (a = 0 ∧ b = 1) ∨ (a = 1 ∧ b = 0) := by omega
  · rw [sum_rows_split g]
    refine congrArg₂ (· + ·) (Finset.sum_congr rfl fun k _ => congrArg g (Fin.ext ?_))
      (Finset.sum_congr rfl fun k _ => congrArg g (Fin.ext ?_))
    · show 0 * 1024 + k.val = k.val
      omega
    · show 1 * 1024 + k.val = 1024 + k.val
      omega
  · rw [sum_rows_split g, add_comm]
    refine congrArg₂ (· + ·) (Finset.sum_congr rfl fun k _ => congrArg g (Fin.ext ?_))
      (Finset.sum_congr rfl fun k _ => congrArg g (Fin.ext ?_))
    · show 0 * 1024 + k.val = k.val
      omega
    · show 1 * 1024 + k.val = 1024 + k.val
      omega

/-- The kernel's column sums of a block, read at a column: the sum down that column. -/
theorem colSum_apply (X : FVec Ideal S1024x512 .f32) (w u : Fin 1) (q : Fin 512) :
    colSum (F := Ideal) X (ix3 w u q) = ∑ k : Fin 1024, X (ix2 k q) := by
  unfold colSum k0_pay2
  refine (shapeCast_ab_1ab_apply _ _ w u q).trans ?_
  refine (shapeCast_a_1a_apply _ _ u q).trans ?_
  refine (Ideal.multiReduction_add_single _ _ _ _ _ (ix1 q)).trans ?_
  rw [shapeCast_self]
  refine Finset.sum_congr rfl fun k _ => congrArg X ?_
  funext a
  match a with
  | ⟨0, _⟩ => rfl
  | ⟨1, _⟩ => rfl

/-- A device's result row at a column: its block's column sum plus its partner's. -/
theorem outVal_apply (X Xp : FVec Ideal S1024x512 .f32) (u : Fin 1) (q : Fin 512) :
    outVal (F := Ideal) X Xp (ix2 u q) = (∑ k : Fin 1024, X (ix2 k q)) + ∑ k : Fin 1024, Xp (ix2 k q) := by
  unfold outVal k0_pay1
  refine (addf_apply _ _ _).trans ?_
  refine congrArg₂ (· + ·) ?_ ?_
  · exact (shapeCast_1ab_ab_apply _ _ u q).trans (colSum_apply X 0 u q)
  · exact (shapeCast_1ab_ab_apply _ _ u q).trans (colSum_apply Xp 0 u q)

/-- The reference's result at a column: the sum down the whole column (the initial value is zero). -/
theorem ref_apply (A : FVec Ideal Cert.ReferenceIdeal.S2048x1024 .f32) (u : Fin 1) (p : Fin 1024) :
    Cert.ReferenceIdeal.Read.val_main_v1 (F := Ideal) A (ix2 u p) = ∑ r : Fin 2048, A (ix2 r p) := by
  rw [Cert.ReferenceIdeal.Read.val_main_v1_apply, Cert.ReferenceIdeal.Read.val_main_v0_apply,
    Cert.ReferenceIdeal.Read.val_main_cst_apply]
  show Ideal.ofBits .f32 0x00000000#32 + _ = _
  rw [Ideal.ofBits_zero_f32, zero_add]
  refine Finset.sum_congr rfl fun r _ => congrArg A ?_
  funext a
  match a with
  | ⟨0, _⟩ => rfl
  | ⟨1, _⟩ => rfl

/-- The block coordinates of the four devices: device c is at row-half c / 2 and column-half c % 2. -/
theorem meshLin_dev : ∀ c : Fin 4, meshLin [2, 2] c.val [0] = c.val / 2 ∧ meshLin [2, 2] c.val [1] = c.val % 2 := by
  decide

/-- A device's argument block at (k, q) is the whole array at (1024 a + k, 512 b + q), a and b the device's
    mesh coordinates. -/
theorem arg_block_apply (A : FVec Ideal Cert.ReferenceIdeal.S2048x1024 .f32) (c : Dev nD) (a b : Nat)
    (ha : c.val / 2 = a) (hb : c.val % 2 = b) (k : Fin 1024) (q : Fin 512) :
    (blockN ⟨2, ![1024, 512]⟩ ⟨2, ![2048, 1024]⟩ (meshBlock [2, 2] ![[0], [1]] c) A) (ix2 k q)
      = A (ix2 (⟨a * 1024 + k.val, by have : c.val < 4 := c.isLt; omega⟩ : Fin 2048) (⟨b * 512 + q.val, by omega⟩ : Fin 1024)) := by
  refine congrArg A ?_
  funext x
  match x with
  | ⟨0, _⟩ =>
    refine Fin.ext ?_
    show meshLin [2, 2] c.val [0] * 1024 + k.val = a * 1024 + k.val
    rw [(meshLin_dev c).1, ha]
  | ⟨1, _⟩ =>
    refine Fin.ext ?_
    show meshLin [2, 2] c.val [1] * 512 + q.val = b * 512 + q.val
    rw [(meshLin_dev c).2, hb]

/-- A device's block of a one-row result at column q is the whole row at column 512 b + q. -/
theorem res_block_apply (V : FVec Ideal Cert.ReferenceIdeal.S1x1024 .f32) (c : Dev nD) (b : Nat)
    (hb : c.val % 2 = b) (u : Fin 1) (q : Fin 512) :
    (blockN ⟨2, ![1, 512]⟩ ⟨2, ![1, 1024]⟩ (meshBlock [2, 2] ![[], [1]] c) V) (ix2 u q)
      = V (ix2 u (⟨b * 512 + q.val, by omega⟩ : Fin 1024)) := by
  refine congrArg V ?_
  funext x
  match x with
  | ⟨0, _⟩ =>
    refine Fin.ext ?_
    show 0 * 1 + u.val = u.val
    omega
  | ⟨1, _⟩ =>
    refine Fin.ext ?_
    show meshLin [2, 2] c.val [1] * 512 + q.val = b * 512 + q.val
    rw [(meshLin_dev c).2, hb]

/-- The value equation: on every device, the result row the kernel computes from the device's own block and
    its partner's is the device's block of the reference's result. Column by column: the two blocks are the two
    halves of the rows, and a sum over all rows is the sum of the sums over the halves, in either order. -/
theorem out_eq (A : FVec Ideal Cert.ReferenceIdeal.S2048x1024 .f32) (c : Dev nD) :
    outVal (F := Ideal)
        (blockN ⟨2, ![1024, 512]⟩ ⟨2, ![2048, 1024]⟩ (meshBlock [2, 2] ![[0], [1]] c) A)
        (blockN ⟨2, ![1024, 512]⟩ ⟨2, ![2048, 1024]⟩ (meshBlock [2, 2] ![[0], [1]] (peer c)) A)
      = blockN ⟨2, ![1, 512]⟩ ⟨2, ![1, 1024]⟩ (meshBlock [2, 2] ![[], [1]] c)
          (Cert.ReferenceIdeal.Read.val_main_v1 (F := Ideal) A) := by
  funext j
  obtain ⟨u, q, rfl⟩ : ∃ (u : Fin 1) (q : Fin 512), j = ix2 u q := ⟨j 0, j 1, eq_ix2 j⟩
  have hp : (peer c).val % 2 = c.val % 2 := by revert c; decide
  have hs : c.val / 2 + (peer c).val / 2 = 1 := by revert c; decide
  rw [outVal_apply, res_block_apply _ c _ rfl, ref_apply]
  simp only [arg_block_apply A c _ _ rfl rfl, arg_block_apply A (peer c) _ _ rfl hp]
  exact sum_halves (fun r => A (ix2 r ⟨c.val % 2 * 512 + q.val, by omega⟩)) _ _ hs

/-- The reference runs and leaves its argument unchanged: its generated run, with the value dropped. -/
theorem frame_ri : Cert.frame_ReferenceIdeal :=
  fun m ρ _ => (θ_run Cert.ReferenceIdeal.defs _ _).mono (fun _ h c => (h c).2)
    (Cert.ReferenceIdeal.Value.run (F := Ideal) m ρ)

/-- Given that the kernel's run ends with every device's result at `outVal` of its own and its partner's blocks,
    the kernel's results are the blocks of the reference's result: the reference's value is its generated run's,
    and the two meet by the value equation on each device. -/
theorem algebraic_of_run
    (hrun : ∀ (m : (ℓ : Loc Cert.KernelIdeal.nD Cert.KernelIdeal.τ Cert.KernelIdeal.sig) → Buf (Elt Ideal) ℓ) (ρ : Dev Cert.KernelIdeal.nD → PrngReg),
        θ_run (Cert.KernelIdeal.defs (F := Ideal)) (onTc (τ := Cert.KernelIdeal.τ) (Cert.KernelIdeal.main (F := Ideal))) ⟨m, fun _ => 0, ρ⟩ (Cert.KernelIdeal.Pf.RunPost (F := Ideal) m)) :
    Cert.algebraic_KernelIdeal_ReferenceIdeal := by
  intro m g m' g' _ hagree
  refine ⟨Cert.ReferenceIdeal.Read.val_main_v1 (F := Ideal)
      (m' (((0 : Dev Cert.ReferenceIdeal.nD).tc : Thread Cert.ReferenceIdeal.nD Cert.ReferenceIdeal.τ).loc Cert.ReferenceIdeal.main_arg0)),
    (θ_run _ _ _).mono ?_ (hrun m g),
    (θ_run Cert.ReferenceIdeal.defs _ _).mono ?_ (Cert.ReferenceIdeal.Value.run (F := Ideal) m' g')⟩
  · intro r h c
    obtain ⟨h1, h2⟩ := h c
    refine ⟨?_, h2⟩
    rw [h1, hagree c, hagree (peer c)]
    exact out_eq _ c
  · intro r h
    exact ⟨(h 0).1, (h 0).2⟩

/-- info: 'Cert.KernelIdeal.Val.algebraic_of_run' depends on axioms: [propext, Classical.choice, Quot.sound] -/
#guard_msgs in #print axioms Cert.KernelIdeal.Val.algebraic_of_run
/-- info: 'Cert.KernelIdeal.Val.frame_ri' depends on axioms: [propext, Classical.choice, Quot.sound] -/
#guard_msgs in #print axioms Cert.KernelIdeal.Val.frame_ri

end Cert.KernelIdeal.Val

end
-- ==== Proof.lean ====
/-
  The certificate: a column sum over a 2×2 mesh.

  The whole input `x` is 2048×1024.  Device `c` holds rows `1024·(c / 2) …` and columns `512·(c % 2) …`; the reference sums
  `x` over all 2048 rows, and device `c`'s result must be the columns `512·(c % 2) …` of that row of sums.  The kernel on a
  device sums its own 1024 rows, exchanges that row of 512 sums with its partner — the device holding the other 1024 rows
  of the same columns — and adds what it receives.  The sum over all rows is the sum of the two halves' sums, in either
  order, so every device ends with its part of the reference's result; nothing but commutativity and associativity of
  addition on the extended reals is used, and the precondition is never opened.

  The exchange is an entry handshake on the barrier semaphore followed by one transfer with a send and a receive
  semaphore per device (Proof/Proto.lean: the protocol; Proof/Body.lean: one device's body; Proof/Launch.lean: all devices
  together, and the run with every device's result named).  The frames are that run with the values dropped, read at the
  word level for the program as printed and at the ideal instance for its idealization; the ideal pass rewrote nothing, so
  there is nothing to preserve; the value equation is Proof/Value.lean.
-/
import proofs.«901094_g7700000000001095_dist_sum_ax0_xy_m1024_n512_v7x_xy2x2_bf16_1_alg».proof.Defs
import proofs.«901094_g7700000000001095_dist_sum_ax0_xy_m1024_n512_v7x_xy2x2_bf16_1_alg».proof.Proof.Gen.Kernel
import proofs.«901094_g7700000000001095_dist_sum_ax0_xy_m1024_n512_v7x_xy2x2_bf16_1_alg».proof.Proof.Gen.Kernel.Skeleton
import proofs.«901094_g7700000000001095_dist_sum_ax0_xy_m1024_n512_v7x_xy2x2_bf16_1_alg».proof.Proof.Gen.Kernel.Launch
import proofs.«901094_g7700000000001095_dist_sum_ax0_xy_m1024_n512_v7x_xy2x2_bf16_1_alg».proof.Proof.Gen.Kernel.Points
import proofs.«901094_g7700000000001095_dist_sum_ax0_xy_m1024_n512_v7x_xy2x2_bf16_1_alg».proof.Proof.Gen.Kernel.Frame
import proofs.«901094_g7700000000001095_dist_sum_ax0_xy_m1024_n512_v7x_xy2x2_bf16_1_alg».proof.Proof.Gen.KernelIdeal
import proofs.«901094_g7700000000001095_dist_sum_ax0_xy_m1024_n512_v7x_xy2x2_bf16_1_alg».proof.Proof.Gen.KernelIdeal.Skeleton
import proofs.«901094_g7700000000001095_dist_sum_ax0_xy_m1024_n512_v7x_xy2x2_bf16_1_alg».proof.Proof.Gen.KernelIdeal.Launch
import proofs.«901094_g7700000000001095_dist_sum_ax0_xy_m1024_n512_v7x_xy2x2_bf16_1_alg».proof.Proof.Gen.KernelIdeal.Points
import proofs.«901094_g7700000000001095_dist_sum_ax0_xy_m1024_n512_v7x_xy2x2_bf16_1_alg».proof.Proof.Gen.KernelIdeal.Frame
import proofs.«901094_g7700000000001095_dist_sum_ax0_xy_m1024_n512_v7x_xy2x2_bf16_1_alg».proof.Proof.Gen.ReferenceIdeal
import proofs.«901094_g7700000000001095_dist_sum_ax0_xy_m1024_n512_v7x_xy2x2_bf16_1_alg».proof.Proof.Gen.Pre_finite_inputs_Kernel
import proofs.«901094_g7700000000001095_dist_sum_ax0_xy_m1024_n512_v7x_xy2x2_bf16_1_alg».proof.Proof.Gen.Pre_finite_inputs_ReferenceIdeal
import proofs.«901094_g7700000000001095_dist_sum_ax0_xy_m1024_n512_v7x_xy2x2_bf16_1_alg».proof.Proof.Launch
import proofs.«901094_g7700000000001095_dist_sum_ax0_xy_m1024_n512_v7x_xy2x2_bf16_1_alg».proof.Proof.BitsLaunch
import proofs.«901094_g7700000000001095_dist_sum_ax0_xy_m1024_n512_v7x_xy2x2_bf16_1_alg».proof.Proof.Value
import Idealize.ShloMosaic.Adequacy
import Idealize.ShloMosaic.Init

noncomputable section

namespace Cert.Proof

open Idealize.ShloMosaic Idealize.SL.Sem

/-- The program as printed runs and leaves its argument blocks unchanged: its run at the word level, the results dropped. -/
theorem frame_k : Cert.frame_Kernel := fun m ρ _ =>
  (θ_run Cert.Kernel.defs _ _).mono (fun _ h c => (h c).2) (Cert.Kernel.Pf.run_post (F := Bits) m ρ)

/-- The same of its idealization, at the ideal instance. -/
theorem frame_ki : Cert.frame_KernelIdeal := fun m ρ _ =>
  (θ_run Cert.KernelIdeal.defs _ _).mono (fun _ h c => (h c).2) (Cert.KernelIdeal.Pf.run_post (F := Ideal) m ρ)

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, Cert.KernelIdeal.Val.frame_ri, trivial,
  Cert.KernelIdeal.Val.algebraic_of_run fun m ρ => Cert.KernelIdeal.Pf.run_post (F := Ideal) m ρ⟩

end Cert.Proof

end
